-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S2x50257 : Shape := ⟨2, ![2, 50257]⟩
abbrev S2 : Shape := ⟨1, ![2]⟩
abbrev S_ : Shape := ⟨0, ![]⟩

class Facts : Prop where
  bcast_S_S2x50257 : S_.BroadcastsInDim S2x50257 (![] : Fin 0 → Fin S2x50257.rank)
  reducesTo_S2x50257_S_d0_1 : S2x50257.ReducesTo [0, 1] S_
  h_S_ : 0 < S_.numel
  bcast_S_S2 : S_.BroadcastsInDim S2 (![] : Fin 0 → Fin S2.rank)
  reducesTo_S2_S_d0 : S2.ReducesTo [0] S_
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : IVec S512x512 32) (main_arg1 : FVec F S2x50257 .f32) (main_arg2 : FVec F S2 .f32) : IVec S_ 1 :=
  let main_v0 : FVec F S2x50257 .f32 := Host.absf main_arg1
  let main_cst : FVec F S_ .f32 := constant S_ .f32 0x7F800000#32
  let main_v1 : FVec F S2x50257 .f32 := broadcastInDim S2x50257 ![] bcast_S_S2x50257 main_cst
  let main_v2 : IVec S2x50257 1 := cmpf .olt main_v0 main_v1
  let main_c : IVec S_ 1 := constantI S_ 1 1#1
  let main_v3 : IVec S_ 1 := (fun x v => Host.reduce IntOp.andi x v reducesTo_S2x50257_S_d0_1 h_S_) main_v2 main_c
  let main_v4 : FVec F S2 .f32 := Host.absf main_arg2
  let main_cst_0 : FVec F S_ .f32 := constant S_ .f32 0x7F800000#32
  let main_v5 : FVec F S2 .f32 := broadcastInDim S2 ![] bcast_S_S2 main_cst_0
  let main_v6 : IVec S2 1 := cmpf .olt main_v4 main_v5
  let main_c_1 : IVec S_ 1 := constantI S_ 1 1#1
  let main_v7 : IVec S_ 1 := (fun x v => Host.reduce IntOp.andi x v reducesTo_S2_S_d0 h_S_) main_v6 main_c_1
  let main_v8 : IVec S_ 1 := andi main_v3 main_v7
  let main_c_2 : IVec S_ 32 := constantI S_ 32 0#32
  let main_v9 : IVec S512x512 32 := broadcastInDim S512x512 ![] bcast_S_S512x512 main_c_2
  let main_v10 : IVec S512x512 1 := cmpi .sge main_arg0 main_v9
  let main_c_3 : IVec S_ 1 := constantI S_ 1 1#1
  let main_v11 : IVec S_ 1 := (fun x v => Host.reduce IntOp.andi x v reducesTo_S512x512_S_d0_1 h_S_) main_v10 main_c_3
  let main_v12 : IVec S_ 1 := andi main_v8 main_v11
  main_v12
-- ==== Kernel.lean ====
abbrev S512x512 : Shape := ⟨2, ![512, 512]⟩
abbrev S2x50257 : Shape := ⟨2, ![2, 50257]⟩
abbrev S2 : Shape := ⟨1, ![2]⟩
abbrev S_ : Shape := ⟨0, ![]⟩
abbrev S2x65536 : Shape := ⟨2, ![2, 65536]⟩
abbrev S2x256x256 : Shape := ⟨3, ![2, 256, 256]⟩
abbrev S512x2 : Shape := ⟨2, ![512, 2]⟩
abbrev S16x512 : Shape := ⟨2, ![16, 512]⟩
abbrev S16x2 : Shape := ⟨2, ![16, 2]⟩
abbrev S1x1x256 : Shape := ⟨3, ![1, 1, 256]⟩
abbrev S16x512x1 : Shape := ⟨3, ![16, 512, 1]⟩
abbrev S16x512x256 : Shape := ⟨3, ![16, 512, 256]⟩
abbrev S16x256x256 : Shape := ⟨3, ![16, 256, 256]⟩
abbrev S1x256x256 : Shape := ⟨3, ![1, 256, 256]⟩
abbrev S256x256 : Shape := ⟨2, ![256, 256]⟩
abbrev S16x256 : Shape := ⟨2, ![16, 256]⟩
abbrev S16 : Shape := ⟨1, ![16]⟩
abbrev S16x1 : Shape := ⟨2, ![16, 1]⟩
abbrev S1x2 : Shape := ⟨2, ![1, 2]⟩

abbrev nBuf : Space → Nat
  | .hbm => 11
  | .vmem => 5
  | .smem => 0
  | _ => 0

abbrev bufTy : (tb : Table) → Fin (tcTables nBuf tb) → BufTy
  | .hbm, ⟨0, _⟩ => ⟨S512x512, .i32⟩
  | .hbm, ⟨1, _⟩ => ⟨S2x50257, .f32⟩
  | .hbm, ⟨2, _⟩ => ⟨S2, .f32⟩
  | .hbm, ⟨3, _⟩ => ⟨S_, .i32⟩
  | .hbm, ⟨4, _⟩ => ⟨S_, .f32⟩
  | .hbm, ⟨5, _⟩ => ⟨S2x65536, .f32⟩
  | .hbm, ⟨6, _⟩ => ⟨S2x256x256, .f32⟩
  | .hbm, ⟨7, _⟩ => ⟨S512x2, .f32⟩
  | .hbm, ⟨8, _⟩ => ⟨S1x2, .f32⟩
  | .hbm, ⟨9, _⟩ => ⟨S512x2, .f32⟩
  | .hbm, ⟨10, _⟩ => ⟨S512x2, .f32⟩
  | .local _ .vmem, ⟨0, _⟩ => ⟨S16x512, .i32⟩
  | .local _ .vmem, ⟨1, _⟩ => ⟨S16x512, .i32⟩
  | .local _ .vmem, ⟨2, _⟩ => ⟨S2x256x256, .f32⟩
  | .local _ .vmem, ⟨3, _⟩ => ⟨S16x2, .f32⟩
  | .local _ .vmem, ⟨4, _⟩ => ⟨S16x2, .f32⟩
  | _, _ => ⟨S512x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S2x50257_S2x65536_000_0152790 : S2x50257.Pads (![0, 0] : Fin 2 → Nat) ![0, 15279] ![0, 0] S2x65536
  h_S_ : 0 < S_.numel
  shapeCasts_S2x65536_S2x256x256 : S2x65536.ShapeCasts S2x256x256
  inb_S16x512_S16x512_0_0 : ∀ a, (![0, 0] : Fin 2 → Nat) a + S16x512.size a ≤ S16x512.size a
  h_S16x512 : 0 < S16x512.numel
  iota_S1x1x256_d2_w32 : S1x1x256.Iotas .tc 32 [2]
  shapeCasts_S16x512_S16x512x1 : S16x512.ShapeCasts S16x512x1
  broadcasts_S16x512x1_S16x512x256 : S16x512x1.Broadcasts S16x512x256
  broadcasts_S1x1x256_S16x512x256 : S1x1x256.Broadcasts S16x512x256
  natLt_1_32 : 1 < 32
  bitsLt_bf16_f32 : FTy.bits .bf16 < FTy.bits .f32
  inb_S2x256x256_S2x256x256_0_0_0 : ∀ a, (![0, 0, 0] : Fin 3 → Nat) a + S2x256x256.size a ≤ S2x256x256.size a
  h_S2x256x256 : 0 < S2x256x256.numel
  shapeCasts_S2x256x256_S2x256x256 : S2x256x256.ShapeCasts S2x256x256
  slices_S2x256x256_o0_0_0_S1x256x256 : S2x256x256.Slices ![0, 0, 0] S1x256x256
  shapeCasts_S1x256x256_S256x256 : S1x256x256.ShapeCasts S256x256
  shapeCasts_S256x256_S1x256x256 : S256x256.ShapeCasts S1x256x256
  broadcasts_S1x256x256_S16x256x256 : S1x256x256.Broadcasts S16x256x256
  reduces_S16x256x256_S16x256 : S16x256x256.Reduces [2] S16x256
  reduces_S16x256_S16 : S16x256.Reduces [1] S16
  slices_S2x256x256_o1_0_0_S1x256x256 : S2x256x256.Slices ![1, 0, 0] S1x256x256
  shapeCasts_S16_S16x1 : S16.ShapeCasts S16x1
  concatenates_S16x1_S16x1_S16x2_d1 : Shape.Concatenates [S16x1, S16x1] S16x2 1
  inb_S16x2_S16x2_0_0 : ∀ a, (![0, 0] : Fin 2 → Nat) a + S16x2.size a ≤ S16x2.size a
  h_S16x2 : 0 < S16x2.numel
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  dot_S16x512x256_S16x512x256_S16x256x256_1_1_2_2_0_0_wf : DotDims.WF S16x512x256 S16x512x256 S16x256x256 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512.size a ≤ S512x512.size a
  hwx0_0 : ∀ i : grid0.Coords, EltTy.bits .i32 = 32 ∨ (Rect.block (s := S512x512) S16x512.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x256x256.size a ≤ S2x256x256.size a
  hwx0_1 : ∀ i : grid0.Coords, EltTy.bits .f32 = 32 ∨ (Rect.block (s := S2x256x256) S2x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x2.size a ≤ S512x2.size a
  hwx0_2 : ∀ i : grid0.Coords, EltTy.bits .f32 = 32 ∨ (Rect.block (s := S512x2) S16x2.size (cc0_transform_2 i) (hinb0_2 i)).WholeWords (EltTy.packing .f32)

variable [Facts₀]

def dot_S16x512x256_S16x512x256_S16x256x256_1_1_2_2_0_0 : DotDims S16x512x256 S16x512x256 S16x256x256 where
  lhsContracting := [1]
  rhsContracting := [1]
  lhsNonContracting := [2]
  rhsNonContracting := [2]
  lhsBatch := [0]
  rhsBatch := [0]
  wf := dot_S16x512x256_S16x512x256_S16x256x256_1_1_2_2_0_0_wf

abbrev win0_0 : Pipeline.Window sig grid0 :=
  Pipeline.Window.ofSpec (Memref.whole main_arg0) S16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x512 : Shape := ⟨2, ![512, 512]⟩
abbrev S2x50257 : Shape := ⟨2, ![2, 50257]⟩
abbrev S2 : Shape := ⟨1, ![2]⟩
abbrev S_ : Shape := ⟨0, ![]⟩
abbrev S512 : Shape := ⟨1, ![512]⟩
abbrev S512x1 : Shape := ⟨2, ![512, 1]⟩
abbrev S512x50257 : Shape := ⟨2, ![512, 50257]⟩
abbrev S512x512x1 : Shape := ⟨3, ![512, 512, 1]⟩
abbrev S512x512x2 : Shape := ⟨3, ![512, 512, 2]⟩
abbrev S512x2 : Shape := ⟨2, ![512, 2]⟩
abbrev S1x2 : Shape := ⟨2, ![1, 2]⟩

abbrev nBuf : Space → Nat
  | .hbm => 34
  | .vmem => 0
  | .smem => 0
  | _ => 0

abbrev bufTy : (tb : Table) → Fin (tcTables nBuf tb) → BufTy
  | .hbm, ⟨0, _⟩ => ⟨S512x512, .i32⟩
  | .hbm, ⟨1, _⟩ => ⟨S2x50257, .f32⟩
  | .hbm, ⟨2, _⟩ => ⟨S2, .f32⟩
  | .hbm, ⟨3, _⟩ => ⟨S_, .i32⟩
  | .hbm, ⟨4, _⟩ => ⟨S512x512, .i32⟩
  | .hbm, ⟨5, _⟩ => ⟨S512x512, .i1⟩
  | .hbm, ⟨6, _⟩ => ⟨S512x512, .f32⟩
  | .hbm, ⟨7, _⟩ => ⟨S512, .i32⟩
  | .hbm, ⟨8, _⟩ => ⟨S512x1, .i32⟩
  | .hbm, ⟨9, _⟩ => ⟨S512x512, .i32⟩
  | .hbm, ⟨10, _⟩ => ⟨S_, .f32⟩
  | .hbm, ⟨11, _⟩ => ⟨S512x50257, .f32⟩
  | .hbm, ⟨12, _⟩ => ⟨S_, .i32⟩
  | .hbm, ⟨13, _⟩ => ⟨S512x512, .i32⟩
  | .hbm, ⟨14, _⟩ => ⟨S512x512, .i1⟩
  | .hbm, ⟨15, _⟩ => ⟨S_, .i32⟩
  | .hbm, ⟨16, _⟩ => ⟨S512x512, .i32⟩
  | .hbm, ⟨17, _⟩ => ⟨S512x512, .i32⟩
  | .hbm, ⟨18, _⟩ => ⟨S512x512, .i32⟩
  | .hbm, ⟨19, _⟩ => ⟨S_, .i32⟩
  | .hbm, ⟨20, _⟩ => ⟨S512x512, .i32⟩
  | .hbm, ⟨21, _⟩ => ⟨S512x512, .i1⟩
  | .hbm, ⟨22, _⟩ => ⟨S_, .i32⟩
  | .hbm, ⟨23, _⟩ => ⟨S512x512, .i32⟩
  | .hbm, ⟨24, _⟩ => ⟨S512x512, .i32⟩
  | .hbm, ⟨25, _⟩ => ⟨S512x512, .i32⟩
  | .hbm, ⟨26, _⟩ => ⟨S512x512x1, .i32⟩
  | .hbm, ⟨27, _⟩ => ⟨S512x512x1, .i32⟩
  | .hbm, ⟨28, _⟩ => ⟨S512x512x2, .i32⟩
  | .hbm, ⟨29, _⟩ => ⟨S512x50257, .f32⟩
  | .hbm, ⟨30, _⟩ => ⟨S512x2, .f32⟩
  | .hbm, ⟨31, _⟩ => ⟨S1x2, .f32⟩
  | .hbm, ⟨32, _⟩ => ⟨S512x2, .f32⟩
  | .hbm, ⟨33, _⟩ => ⟨S512x2, .f32⟩
  | _, _ => ⟨S512x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  bcast_S_S512x50257 : S_.BroadcastsInDim S512x50257 (![] : Fin 0 → Fin S512x50257.rank)
  bcast_S512x512_S512x512x1_0_1 : S512x512.BroadcastsInDim S512x512x1 (![0, 1] : Fin 2 → Fin S512x512x1.rank)
  concatenates_S512x512x1_S512x512x1_S512x512x2_d2 : Shape.Concatenates [S512x512x1, S512x512x1] S512x512x2 2
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  scatter_S512x50257_S512x512x2_S512x512_n_01_01_2_wf : ScatterDims.WF S512x50257 S512x512x2 S512x512 [] [0, 1] [0, 1] 2
  dot_S512x50257_S2x50257_S512x2_1_1_0_0_n_n_wf : DotDims.WF S512x50257 S2x50257 S512x2 [1] [1] [0] [0] [] []

variable [Facts₀]

def scatter_S512x50257_S512x512x2_S512x512_n_01_01_2 : ScatterDims S512x50257 S512x512x2 S512x512 where
  updateWindowDims := []
  insertedWindowDims := [0, 1]
  scatterDimsToOperandDims := [0, 1]
  indexVectorDim := 2
  wf := scatter_S512x50257_S512x512x2_S512x512_n_01_01_2_wf
def dot_S512x50257_S2x50257_S512x2_1_1_0_0_n_n : DotDims S512x50257 S2x50257 S512x2 where
  lhsContracting := [1]
  rhsContracting := [1]
  lhsNonContracting := [0]
  rhsNonContracting := [0]
  lhsBatch := []
  rhsBatch := []
  wf := dot_S512x50257_S2x50257_S512x2_1_1_0_0_n_n_wf

class Facts : Prop extends Facts₀ where

variable [Facts]
-- ==== Proof.BagCount.lean ====
/-
  The bag-of-words logits as one function of the argument arrays.

  A row of token ids is turned into a histogram over the vocabulary: slot v counts the positions of the row whose id is v,
  except that the pad id 0 is never counted. The logit of class c is the histogram paired with row c of the weight
  matrix, plus the bias of c. An id outside the vocabulary lands in no slot.
-/
import Idealize.ShloMosaic.PureOps.Ideal
import Idealize.ShloMosaic.Lib.ValueIdx
import Mathlib.Algebra.BigOperators.Fin

noncomputable section

namespace Cert.BagOfWords

open Idealize.ShloMosaic Idealize.ShloMosaic.ValueIdx

/-- Whether the id word `x` is counted in vocabulary slot `v`: it reads `v` as a signed integer and is not the pad id. -/
def hit (x : BitVec 32) (v : ℕ) : EReal := if x.toInt = (v : ℤ) ∧ x ≠ 0#32 then 1 else 0

/-- The histogram of row `b` of an array of ids with 512 positions a row, at slot `v`. -/
def count {R : ℕ} (ids : IVec ⟨2, ![R, 512]⟩ 32) (b : Fin R) (v : ℕ) : EReal :=
  ∑ s : Fin 512, hit (ids (ix2 b s)) v

/-- The logit of row `b` and class `c`: the row's histogram against row `c` of the weights, plus the class's bias. -/
def logitsAt (ids : IVec ⟨2, ![512, 512]⟩ 32) (W : FVec Ideal ⟨2, ![2, 50257]⟩ .f32) (bias : FVec Ideal ⟨1, ![2]⟩ .f32)
    (b : Fin 512) (c : Fin 2) : EReal :=
  (∑ v : Fin 50257, count ids b v.val * W (ix2 c v)) + bias (ix1 c)

/-- All the logits, as an array of 512 rows and 2 classes. -/
def logits (ids : IVec ⟨2, ![512, 512]⟩ 32) (W : FVec Ideal ⟨2, ![2, 50257]⟩ .f32) (bias : FVec Ideal ⟨1, ![2]⟩ .f32) :
    FVec Ideal ⟨2, ![512, 2]⟩ .f32 :=
  fun j => logitsAt ids W bias (j 0) (j 1)

end Cert.BagOfWords

end
-- ==== Proof.LibElemGS.lean ====
/-
  jax's two-index element access on a matrix, read at an index.

  `x.at[r, c].add(u)` with index arrays r, c of one shape [N, C] lowers to a scatter whose index vectors are the
  pairs (r[n,k], c[n,k]) stacked on a last axis of size 2, with no window axes: element (b, c') of the result is the
  operand's element plus the sum of the updates u[n,k] whose pair reads (b, c') (pairs outside the matrix are dropped).
  `x[r, c]` lowers to a gather of 1×1 slices with both axes collapsed: element (n, k) of the result is the operand's
  element at the pair (r[n,k], c[n,k]), each component read signed and clamped into range.
-/
import Idealize.ShloMosaic.PureOps.Ideal
import Idealize.ShloMosaic.Lib.ValueIdx
import Mathlib.Algebra.BigOperators.Fin

noncomputable section

namespace Cert.Lib.ElemGS

open Idealize.ShloMosaic Idealize.ShloMosaic.ValueIdx

/-! ## Elements scattered and added -/

/-- The dimension numbers of an element scatter: operand `[B, C]`, scatter indices `[N, K, 2]`, updates `[N, K]`;
    no update axis is a window axis, both operand axes are inserted, and the two components of the index vector (the
    last axis of the scatter indices) name the operand's row and column in that order. -/
abbrev elemScatterDims (B C N K : ℕ)
    (wf : ScatterDims.WF ⟨2, ![B, C]⟩ ⟨3, ![N, K, 2]⟩ ⟨2, ![N, K]⟩ [] [0, 1] [0, 1] 2) :
    ScatterDims ⟨2, ![B, C]⟩ ⟨3, ![N, K, 2]⟩ ⟨2, ![N, K]⟩ where
  updateWindowDims := []
  insertedWindowDims := [0, 1]
  scatterDimsToOperandDims := [0, 1]
  indexVectorDim := 2
  wf := wf

section ElemScatter
variable {B C N K w : ℕ} (wf : ScatterDims.WF ⟨2, ![B, C]⟩ ⟨3, ![N, K, 2]⟩ ⟨2, ![N, K]⟩ [] [0, 1] [0, 1] 2)
  (idx : IVec ⟨3, ![N, K, 2]⟩ w) (n : Fin N) (k : Fin K)

/-- On the row axis the window of update `(n, k)` starts at component 0 of its index pair, read signed. -/
theorem elemScatter_start_row :
    (elemScatterDims B C N K wf).start (ix2 n k) idx 0 = (idx (ix3 n k (0 : Fin 2))).toInt := by
  unfold ScatterDims.start
  rw [dif_pos (show (0 : Fin 2) ∈ (elemScatterDims B C N K wf).scatterDimsToOperandDims from
    List.mem_cons_self)]
  congr 2
  funext a
  refine Fin.ext ?_
  match a with
  | ⟨0, _⟩ => rfl
  | ⟨1, _⟩ => rfl
  | ⟨2, _⟩ => rfl

/-- On the column axis the window of update `(n, k)` starts at component 1 of its index pair, read signed. -/
theorem elemScatter_start_col :
    (elemScatterDims B C N K wf).start (ix2 n k) idx 1 = (idx (ix3 n k (1 : Fin 2))).toInt := by
  unfold ScatterDims.start
  rw [dif_pos (show (1 : Fin 2) ∈ (elemScatterDims B C N K wf).scatterDimsToOperandDims from
    List.mem_cons_of_mem _ List.mem_cons_self)]
  congr 2
  funext a
  refine Fin.ext ?_
  match a with
  | ⟨0, _⟩ => rfl
  | ⟨1, _⟩ => rfl
  | ⟨2, _⟩ => rfl

/-- Both operand axes are inserted: none is kept for a window. -/
theorem elemScatter_sKept : (elemScatterDims B C N K wf).sKept = [] :=
  (by decide : (List.finRange 2).filter (fun a : Fin 2 => decide (a ∉ ([0, 1] : List (Fin 2)))) = [])

/-- An inserted axis has window coordinate `0`. -/
theorem elemScatter_window (a : Fin 2) : (elemScatterDims B C N K wf).window (ix2 n k) a = 0 := by
  unfold ScatterDims.window
  rw [dif_neg]
  intro hmem
  rw [elemScatter_sKept] at hmem
  exact absurd hmem List.not_mem_nil

/-- Update `(n, k)` of an element scatter lands at `(b, c)` exactly when its index pair, read signed, is `(b, c)`;
    a pair outside the matrix lands nowhere. -/
theorem resultIdx?_elemDims_eq_some_iff (b : Fin B) (c : Fin C) :
    (elemScatterDims B C N K wf).resultIdx? (ix2 n k) idx = some (ix2 b c)
      ↔ (idx (ix3 n k (0 : Fin 2))).toInt = (b.val : ℤ) ∧ (idx (ix3 n k (1 : Fin 2))).toInt = (c.val : ℤ) := by
  have hs0 := elemScatter_start_row wf idx n k
  have hs1 := elemScatter_start_col wf idx n k
  have hw0 := elemScatter_window wf n k 0
  have hw1 := elemScatter_window wf n k 1
  have hb := b.isLt
  have hc := c.isLt
  unfold ScatterDims.resultIdx?
  by_cases hin : (0 ≤ (idx (ix3 n k (0 : Fin 2))).toInt ∧ (idx (ix3 n k (0 : Fin 2))).toInt < (B : ℤ))
      ∧ (0 ≤ (idx (ix3 n k (1 : Fin 2))).toInt ∧ (idx (ix3 n k (1 : Fin 2))).toInt < (C : ℤ))
  · rw [dif_pos (by
      intro a
      match a with
      | ⟨0, _⟩ =>
        show 0 ≤ (elemScatterDims B C N K wf).start (ix2 n k) idx 0
            + (((elemScatterDims B C N K wf).window (ix2 n k) 0 : ℕ) : ℤ)
          ∧ (elemScatterDims B C N K wf).start (ix2 n k) idx 0
            + (((elemScatterDims B C N K wf).window (ix2 n k) 0 : ℕ) : ℤ) < (B : ℤ)
        rw [hs0, hw0]
        omega
      | ⟨1, _⟩ =>
        show 0 ≤ (elemScatterDims B C N K wf).start (ix2 n k) idx 1
            + (((elemScatterDims B C N K wf).window (ix2 n k) 1 : ℕ) : ℤ)
          ∧ (elemScatterDims B C N K wf).start (ix2 n k) idx 1
            + (((elemScatterDims B C N K wf).window (ix2 n k) 1 : ℕ) : ℤ) < (C : ℤ)
        rw [hs1, hw1]
        omega)]
    rw [Option.some_inj]
    constructor
    · intro hf
      have h0 : ((elemScatterDims B C N K wf).start (ix2 n k) idx 0
          + (((elemScatterDims B C N K wf).window (ix2 n k) 0 : ℕ) : ℤ)).toNat = b.val :=
        congrArg (fun f => (f 0).val) hf
      have h1 : ((elemScatterDims B C N K wf).start (ix2 n k) idx 1
          + (((elemScatterDims B C N K wf).window (ix2 n k) 1 : ℕ) : ℤ)).toNat = c.val :=
        congrArg (fun f => (f 1).val) hf
      rw [hs0, hw0] at h0
      rw [hs1, hw1] at h1
      exact ⟨by omega, by omega⟩
    · rintro ⟨ht0, ht1⟩
      funext a
      apply Fin.ext
      match a with
      | ⟨0, _⟩ =>
        show ((elemScatterDims B C N K wf).start (ix2 n k) idx 0
          + (((elemScatterDims B C N K wf).window (ix2 n k) 0 : ℕ) : ℤ)).toNat = b.val
        rw [hs0, hw0]
        omega
      | ⟨1, _⟩ =>
        show ((elemScatterDims B C N K wf).start (ix2 n k) idx 1
          + (((elemScatterDims B C N K wf).window (ix2 n k) 1 : ℕ) : ℤ)).toNat = c.val
        rw [hs1, hw1]
        omega
  · rw [dif_neg (by
      intro hall
      apply hin
      have h0 : 0 ≤ (elemScatterDims B C N K wf).start (ix2 n k) idx 0
            + (((elemScatterDims B C N K wf).window (ix2 n k) 0 : ℕ) : ℤ)
          ∧ (elemScatterDims B C N K wf).start (ix2 n k) idx 0
            + (((elemScatterDims B C N K wf).window (ix2 n k) 0 : ℕ) : ℤ) < (B : ℤ) := hall 0
      have h1 : 0 ≤ (elemScatterDims B C N K wf).start (ix2 n k) idx 1
            + (((elemScatterDims B C N K wf).window (ix2 n k) 1 : ℕ) : ℤ)
          ∧ (elemScatterDims B C N K wf).start (ix2 n k) idx 1
            + (((elemScatterDims B C N K wf).window (ix2 n k) 1 : ℕ) : ℤ) < (C : ℤ) := hall 1
      rw [hs0, hw0] at h0
      rw [hs1, hw1] at h1
      exact ⟨by omega, by omega⟩)]
    constructor
    · intro hf
      cases hf
    · rintro ⟨ht0, ht1⟩
      exfalso
      apply hin
      omega

end ElemScatter

/-- Where an element update lands, for any record with those dimension numbers: update `(n, k)` lands at `(b, c)`
    exactly when its index pair, read signed and not clamped, is `(b, c)`. -/
theorem resultIdx?_elem_eq_some_iff {B C N K w : ℕ} (d : ScatterDims ⟨2, ![B, C]⟩ ⟨3, ![N, K, 2]⟩ ⟨2, ![N, K]⟩)
    (hu : d.updateWindowDims = []) (hi : d.insertedWindowDims = [0, 1]) (hs : d.scatterDimsToOperandDims = [0, 1])
    (hv : d.indexVectorDim = 2) (idx : IVec ⟨3, ![N, K, 2]⟩ w) (n : Fin N) (k : Fin K) (b : Fin B) (c : Fin C) :
    d.resultIdx? (ix2 n k) idx = some (ix2 b c)
      ↔ (idx (ix3 n k (0 : Fin 2))).toInt = (b.val : ℤ) ∧ (idx (ix3 n k (1 : Fin 2))).toInt = (c.val : ℤ) := by
  obtain ⟨uw, iw, sd, iv, wf⟩ := d
  simp only at hu hi hs hv
  subst hu hi hs hv
  exact resultIdx?_elemDims_eq_some_iff wf idx n k b c

/-- The accumulating scatter of jax's `x.at[r, c].add(u)` read at an index: the operand's element plus the updates whose
    index pair, read signed, is that index. -/
theorem scatterAdd_elem_apply {B C N K w : ℕ} (d : ScatterDims ⟨2, ![B, C]⟩ ⟨3, ![N, K, 2]⟩ ⟨2, ![N, K]⟩)
    (hu : d.updateWindowDims = []) (hi : d.insertedWindowDims = [0, 1]) (hs : d.scatterDimsToOperandDims = [0, 1])
    (hv : d.indexVectorDim = 2)
    (x : FVec Ideal ⟨2, ![B, C]⟩ .f32) (idx : IVec ⟨3, ![N, K, 2]⟩ w) (upd : FVec Ideal ⟨2, ![N, K]⟩ .f32)
    (b : Fin B) (c : Fin C) :
    Host.scatterAdd (F := Ideal) d x idx upd (ix2 b c)
      = x (ix2 b c) + ∑ n : Fin N, ∑ k : Fin K,
          if (idx (ix3 n k (0 : Fin 2))).toInt = (b.val : ℤ) ∧ (idx (ix3 n k (1 : Fin 2))).toInt = (c.val : ℤ)
          then upd (ix2 n k) else 0 := by
  show Ideal.hostScatterAdd d x idx upd (ix2 b c) = _
  unfold Ideal.hostScatterAdd
  congr 1
  rw [Finset.sum_filter, sum_idx2]
  refine Finset.sum_congr rfl (fun n _ => Finset.sum_congr rfl (fun k _ => ?_))
  simp only [resultIdx?_elem_eq_some_iff d hu hi hs hv idx n k b c]

/-! ## Elements gathered -/

/-- The dimension numbers of an element gather: operand `[B, C]`, start indices `[N, K, 2]`, result `[N, K]`;
    the result has no offset axis, both operand axes are collapsed, the two components of the index vector (the last
    axis of the start indices) name the operand's row and column in that order, and the slices are `1 × 1`. -/
abbrev elemGatherDims (B C N K : ℕ)
    (wf : GatherDims.WF ⟨2, ![B, C]⟩ ⟨3, ![N, K, 2]⟩ ⟨2, ![N, K]⟩ [] [0, 1] [] [0, 1] [] 2 ![1, 1]) :
    GatherDims ⟨2, ![B, C]⟩ ⟨3, ![N, K, 2]⟩ ⟨2, ![N, K]⟩ where
  offsetDims := []
  collapsedSliceDims := [0, 1]
  operandBatchingDims := []
  startIndicesBatchingDims := []
  startIndexMap := [0, 1]
  indexVectorDim := 2
  sliceSizes := ![1, 1]
  wf := wf

/-- The element gather at those dimension numbers, read at `(n, k)` whose index pair reads `(b, c)` inside the matrix:
    on each operand axis the start is the pair's component for it (the clamp into `[0, size − 1]` does nothing to a
    component already in range), and neither a batching nor an offset coordinate is added (no batching axis, both axes
    collapsed). -/
theorem gather_elemDims_apply {α : Type} {B C N K w : ℕ}
    (wf : GatherDims.WF ⟨2, ![B, C]⟩ ⟨3, ![N, K, 2]⟩ ⟨2, ![N, K]⟩ [] [0, 1] [] [0, 1] [] 2 ![1, 1])
    (x : (⟨2, ![B, C]⟩ : Shape).Idx → α) (idx : IVec ⟨3, ![N, K, 2]⟩ w) (n : Fin N) (k : Fin K) (b : Fin B) (c : Fin C)
    (h0 : (idx (ix3 n k (0 : Fin 2))).toInt = (b.val : ℤ)) (h1 : (idx (ix3 n k (1 : Fin 2))).toInt = (c.val : ℤ)) :
    Host.gather (elemGatherDims B C N K wf) x idx (ix2 n k) = x (ix2 b c) := by
  unfold Host.gather
  congr 1
  funext a
  refine Fin.ext ?_
  match a with
  | ⟨0, _⟩ =>
    show (elemGatherDims B C N K wf).start (ix2 n k) idx 0 + (elemGatherDims B C N K wf).batchCoord (ix2 n k) 0
      + (elemGatherDims B C N K wf).offCoord (ix2 n k) 0 = b.val
    rw [GatherDims.batchCoord_eq_zero _ _ _ List.not_mem_nil,
      GatherDims.offCoord_eq_zero _ _ _
        (fun h => ((GatherDims.mem_sKept _ _).mp h).1 List.mem_cons_self)]
    simp only [Nat.add_zero]
    unfold GatherDims.start
    rw [dif_pos (show (0 : Fin 2) ∈ (elemGatherDims B C N K wf).startIndexMap from List.mem_cons_self)]
    have hsi : (elemGatherDims B C N K wf).siIdx (ix2 n k)
        ⟨List.idxOf (0 : Fin 2) (elemGatherDims B C N K wf).startIndexMap,
          List.idxOf_lt_length_iff.2 List.mem_cons_self⟩ = ix3 n k (0 : Fin 2) := by
      funext a'
      refine Fin.ext ?_
      match a' with
      | ⟨0, _⟩ => rfl
      | ⟨1, _⟩ => rfl
      | ⟨2, _⟩ => rfl
    rw [hsi, h0]
    show min ((b.val : ℤ)).toNat (B - 1) = b.val
    have := b.isLt
    omega
  | ⟨1, _⟩ =>
    show (elemGatherDims B C N K wf).start (ix2 n k) idx 1 + (elemGatherDims B C N K wf).batchCoord (ix2 n k) 1
      + (elemGatherDims B C N K wf).offCoord (ix2 n k) 1 = c.val
    rw [GatherDims.batchCoord_eq_zero _ _ _ List.not_mem_nil,
      GatherDims.offCoord_eq_zero _ _ _
        (fun h => ((GatherDims.mem_sKept _ _).mp h).1 (List.mem_cons_of_mem _ List.mem_cons_self))]
    simp only [Nat.add_zero]
    unfold GatherDims.start
    rw [dif_pos (show (1 : Fin 2) ∈ (elemGatherDims B C N K wf).startIndexMap from
      List.mem_cons_of_mem _ List.mem_cons_self)]
    have hsi : (elemGatherDims B C N K wf).siIdx (ix2 n k)
        ⟨List.idxOf (1 : Fin 2) (elemGatherDims B C N K wf).startIndexMap,
          List.idxOf_lt_length_iff.2 (List.mem_cons_of_mem _ List.mem_cons_self)⟩ = ix3 n k (1 : Fin 2) := by
      funext a'
      refine Fin.ext ?_
      match a' with
      | ⟨0, _⟩ => rfl
      | ⟨1, _⟩ => rfl
      | ⟨2, _⟩ => rfl
    rw [hsi, h1]
    show min ((c.val : ℤ)).toNat (C - 1) = c.val
    have := c.isLt
    omega

/-- The gather of jax's `x[r, c]` read at an index whose pair is in range: the operand's element at that pair. -/
theorem gather_elem_apply_of_inRange {α : Type} {B C N K w : ℕ} (d : GatherDims ⟨2, ![B, C]⟩ ⟨3, ![N, K, 2]⟩ ⟨2, ![N, K]⟩)
    (ho : d.offsetDims = []) (hc : d.collapsedSliceDims = [0, 1]) (hb : d.operandBatchingDims = [])
    (hsb : d.startIndicesBatchingDims = []) (hm : d.startIndexMap = [0, 1]) (hv : d.indexVectorDim = 2)
    (hsz : d.sliceSizes = ![1, 1])
    (x : (⟨2, ![B, C]⟩ : Shape).Idx → α) (idx : IVec ⟨3, ![N, K, 2]⟩ w) (n : Fin N) (k : Fin K) (b : Fin B) (c : Fin C)
    (h0 : (idx (ix3 n k (0 : Fin 2))).toInt = (b.val : ℤ)) (h1 : (idx (ix3 n k (1 : Fin 2))).toInt = (c.val : ℤ)) :
    Host.gather d x idx (ix2 n k) = x (ix2 b c) := by
  obtain ⟨od, cd, ob, sb, sm, iv, ss, wf⟩ := d
  simp only at ho hc hb hsb hm hv hsz
  subst ho hc hb hsb hm hv hsz
  exact gather_elemDims_apply wf x idx n k b c h0 h1

end Cert.Lib.ElemGS

end
-- ==== Proof.RefBag.lean ====
/-
  The reference program's result, read index by index, is the bag-of-words logits — for ids that are not negative.

  The reference scatters a 1 (a 0 for the pad id) into slot (row, id) of a zero matrix of 512 rows and 50257 slots, after
  moving a negative id up by 50257, and then contracts the matrix with the weights over the slots and adds the bias.
  For an id that is not negative nothing is moved, so slot v of row b collects the non-pad positions of row b whose id
  is v: the histogram.
-/
import proofs.«401654_j5420248727899_3_alg».proof.Proof.Gen.ReferenceIdeal.Read
import proofs.«401654_j5420248727899_3_alg».proof.Proof.BagCount
import proofs.«401654_j5420248727899_3_alg».proof.Proof.LibElemGS

noncomputable section

namespace Cert.ReferenceIdeal.RefValue

open Idealize.ShloMosaic Idealize.ShloMosaic.ValueIdx Cert.ReferenceIdeal Cert.ReferenceIdeal.Read Cert.BagOfWords

/-! ## The index pairs: the two stacked arrays read apart -/

/-- Component 0 of the pair at position (n, s) is the row array's word there. -/
theorem pair_row (ids : IVec S512x512 32) (n s : Fin 512) :
    val_main_v19 (F := Ideal) ids (ix3 n s (0 : Fin 2)) = val_main_v17 (F := Ideal) (ix3 n s (0 : Fin 1)) := by
  unfold val_main_v19
  exact concatenate_pair_apply_left (t := S512x512x2) (s₁ := S512x512x1) (s₂ := S512x512x1) 2
    (val_main_v17 (F := Ideal)) (val_main_v18 (F := Ideal) ids) _ (ix3 n s (0 : Fin 2)) rfl (ix3 n s (0 : Fin 1)) (fun b => by
    match b with
    | ⟨0, _⟩ => rfl
    | ⟨1, _⟩ => rfl
    | ⟨2, _⟩ => rfl)

/-- Component 1 of the pair at position (n, s) is the column array's word there. -/
theorem pair_col (ids : IVec S512x512 32) (n s : Fin 512) :
    val_main_v19 (F := Ideal) ids (ix3 n s (1 : Fin 2)) = val_main_v18 (F := Ideal) ids (ix3 n s (0 : Fin 1)) := by
  unfold val_main_v19
  exact concatenate_pair_apply_right (t := S512x512x2) (s₁ := S512x512x1) (s₂ := S512x512x1) 2
    (val_main_v17 (F := Ideal)) (val_main_v18 (F := Ideal) ids) _ (ix3 n s (1 : Fin 2)) rfl rfl (ix3 n s (0 : Fin 1)) (fun b hb => by
    match b with
    | ⟨0, _⟩ => rfl
    | ⟨1, _⟩ => rfl
    | ⟨2, _⟩ => exact absurd rfl hb) rfl

/-- A number below 512, as a 32-bit word, reads itself signed. -/
theorem toInt_ofNat_lt (n : Fin 512) : (BitVec.ofNat 32 n.val).toInt = (n.val : ℤ) := by
  have h := n.isLt
  rw [BitVec.toInt_eq_toNat_cond, BitVec.toNat_ofNat]
  have e : n.val % 2 ^ 32 = n.val := Nat.mod_eq_of_lt (by omega)
  rw [e, if_pos (by omega)]

/-- The row array holds the row number: the fix-up of a negative row number never fires. -/
theorem row_word (n s : Fin 512) :
    val_main_v17 (F := Ideal) (ix3 n s (0 : Fin 1)) = BitVec.ofNat 32 n.val := by
  have h5 : val_main_v5 (F := Ideal) (ix2 n s) = BitVec.ofNat 32 n.val := by
    rw [val_main_v5_apply, val_main_v4_apply, val_main_v3_apply]
  have hi : idx_main_v17 (ix3 n s (0 : Fin 1)) = ix2 n s :=
    funext fun a => Fin.ext (by match a with | ⟨0, _⟩ => rfl | ⟨1, _⟩ => rfl)
  rw [val_main_v17_apply, hi, val_main_v11_apply, val_main_v8_apply, h5, val_main_v7_apply, val_main_c_0_apply]
  have hlt : (BitVec.ofNat 32 n.val).slt 0#32 = false := by
    rw [BitVec.slt_eq_decide, toInt_ofNat_lt]
    simp
  show Scalar.select (BitVec.ofBool ((BitVec.ofNat 32 n.val).slt 0#32)) _ _ = _
  rw [hlt]
  exact select_zero _ _

/-- The column array holds the id itself when the id is not negative: nothing is moved up. -/
theorem col_word (ids : IVec S512x512 32) (n s : Fin 512) (h0 : 0 ≤ (ids (ix2 n s)).toInt) :
    val_main_v18 (F := Ideal) ids (ix3 n s (0 : Fin 1)) = ids (ix2 n s) := by
  have hi : idx_main_v18 (ix3 n s (0 : Fin 1)) = ix2 n s :=
    funext fun a => Fin.ext (by match a with | ⟨0, _⟩ => rfl | ⟨1, _⟩ => rfl)
  rw [val_main_v18_apply, hi, val_main_v16_apply, val_main_v13_apply, val_main_v12_apply, val_main_c_2_apply]
  have hlt : (ids (ix2 n s)).slt 0#32 = false := by
    rw [BitVec.slt_eq_decide]
    simp
    exact h0
  show Scalar.select (BitVec.ofBool ((ids (ix2 n s)).slt 0#32)) _ _ = _
  rw [hlt]
  exact select_zero _ _

/-- The mask is 1 at an id that is not the pad id and 0 at the pad id. -/
theorem mask_val (ids : IVec S512x512 32) (n s : Fin 512) :
    val_main_v2 (F := Ideal) ids (ix2 n s) = if ids (ix2 n s) ≠ 0#32 then (1 : EReal) else 0 := by
  rw [val_main_v2_apply, val_main_v1_apply, val_main_v0_apply, val_main_c_apply]
  show (((BitVec.ofBool (ids (ix2 n s) != 0#32)).toNat : ℝ) : EReal) = _
  by_cases h : ids (ix2 n s) = 0#32
  · rw [h]; simp
  · rw [if_pos h]
    have : (ids (ix2 n s) != 0#32) = true := by simpa using h
    rw [this]; simp

/-! ## The scattered matrix is the histogram -/

/-- Slot `v` of row `b` of the scattered matrix: only the positions of row `b` land in row `b`, and a position
    lands in slot `v` with its mask value exactly when its id reads `v`. -/
theorem scatter_count (ids : IVec S512x512 32) (hpos : ∀ (b s : Fin 512), 0 ≤ (ids (ix2 b s)).toInt)
    (b : Fin 512) (v : Fin 50257) :
    val_main_v20 (F := Ideal) ids (ix2 b v) = count ids b v.val := by
  unfold val_main_v20
  refine (Cert.Lib.ElemGS.scatterAdd_elem_apply scatter_S512x50257_S512x512x2_S512x512_n_01_01_2 rfl rfl rfl rfl
    (val_main_v6 (F := Ideal)) (val_main_v19 (F := Ideal) ids) (val_main_v2 (F := Ideal) ids) b v).trans ?_
  rw [val_main_v6_apply, val_main_cst_apply]
  show Ideal.ofBits .f32 0x00000000#32 + _ = _
  rw [Ideal.ofBits_zero_f32, zero_add]
  rw [Finset.sum_eq_single b]
  · unfold BagOfWords.count
    refine Finset.sum_congr rfl fun s _ => ?_
    rw [pair_row, row_word, pair_col, col_word ids b s (hpos b s), mask_val, toInt_ofNat_lt]
    unfold BagOfWords.hit
    by_cases hP : (ids (ix2 b s)).toInt = (v.val : ℤ)
    · by_cases hQ : ids (ix2 b s) = 0#32
      · simp [hP, hQ]
      · simp [hP, hQ]
    · simp [hP]
  · intro n _ hn
    refine Finset.sum_eq_zero fun s _ => ?_
    rw [pair_row, row_word, toInt_ofNat_lt, if_neg]
    intro h
    exact hn (Fin.ext (by exact_mod_cast h.1))
  · intro h
    exact absurd (Finset.mem_univ b) h

/-- The reference's last stage is the logits, when no id is negative. -/
theorem ref_eq_logits (ids : IVec S512x512 32) (W : FVec Ideal S2x50257 .f32) (bias : FVec Ideal S2 .f32)
    (hpos : ∀ (b s : Fin 512), 0 ≤ (ids (ix2 b s)).toInt) :
    Read.val_main_v24 (F := Ideal) ids W bias = logits ids W bias := by
  funext j
  obtain ⟨b, c, rfl⟩ : ∃ (b : Fin 512) (c : Fin 2), j = ix2 b c := ⟨j 0, j 1, eq_ix2 j⟩
  show _ = logitsAt ids W bias b c
  unfold logitsAt
  rw [val_main_v24_apply, val_main_v21_apply, val_main_v23_apply, val_main_v22_apply]
  have hb : idx_main_v22 (idx_main_v23 (ix2 b c)) = ix1 c :=
    funext fun a => Fin.ext (by match a with | ⟨0, _⟩ => rfl)
  rw [hb]
  show (∑ k : Fin 50257, _) + bias (ix1 c) = _
  refine congrArg (fun t : EReal => t + bias (ix1 c)) (Finset.sum_congr rfl fun v _ => ?_)
  have hl : lidx_main_v21 (ix2 b c) v = ix2 b v :=
    funext fun a => Fin.ext (by match a with | ⟨0, _⟩ => rfl | ⟨1, _⟩ => rfl)
  have hr : ridx_main_v21 (ix2 b c) v = ix2 c v :=
    funext fun a => Fin.ext (by match a with | ⟨0, _⟩ => rfl | ⟨1, _⟩ => rfl)
  rw [hl, hr, scatter_count ids hpos b v]

end Cert.ReferenceIdeal.RefValue

end
-- ==== Proof.NonNeg.lean ====
/-
  The precondition says that no token id is negative.
-/
import proofs.«401654_j5420248727899_3_alg».proof.Pre_finite_inputs
import Idealize.ShloMosaic.PureOps.Ideal
import Idealize.ShloMosaic.Lib.ValueIdx
import Idealize.ShloMosaic.Lib.ReduceAll

noncomputable section

namespace Cert.Pre_finite_inputs.Decode

open Idealize.ShloMosaic Idealize.ShloMosaic.ValueIdx Cert.Pre_finite_inputs

/-- The precondition's last conjunct, read at a position: the id there, read signed, is not negative. -/
theorem ids_nonneg_of_pre [Cert.Pre_finite_inputs.Facts] (ids : IVec S512x512 32) (W : FVec Ideal S2x50257 .f32)
    (bias : FVec Ideal S2 .f32) (h : Cert.Pre_finite_inputs.fn (F := Ideal) ids W bias = fun _ => 1#1) :
    ∀ (b s : Fin 512), 0 ≤ (ids (ix2 b s)).toInt := by
  intro b s
  -- the scalar result, read at its one index, is the "and" of three bits; the last one is 1
  have h0 := congrFun h ValueIdx.ix0
  dsimp only [Cert.Pre_finite_inputs.fn] at h0
  have h3 := (IntOp.andi_eq_one.1 h0).2
  -- an "and" over all positions that came out 1 met a 1 at every position
  haveI : Subsingleton S_.Idx := ⟨fun a b => funext fun d => d.elim0⟩
  have hbs := Host.reduce_andi_all _ _ _ _ _ h3 (ix2 b s)
  -- at the position (b, s) the bit compares the id, signed, with the zero word
  have hge := IntOp.cmpi_sge.1 hbs
  simpa [broadcastInDim, constantI] using hge

end Cert.Pre_finite_inputs.Decode

end
-- ==== Proof.BagWords.lean ====
/-
  The kernel's two bucket words of a token id, and sums over pairs of buckets.
-/
import proofs.«401654_j5420248727899_3_alg».proof.Proof.BagCount
import Mathlib.Data.Fintype.BigOperators
import Mathlib.Logic.Equiv.Fin.Basic

noncomputable section

namespace Cert.BagOfWords

open Idealize.ShloMosaic Idealize.ShloMosaic.ValueIdx

/-- The high bucket word of an id: all ones (−1) for the pad id, a negative id or an id past the vocabulary, else the
    id shifted right by eight places. -/
def hiWord (x : BitVec 32) : BitVec 32 :=
  Scalar.select (IntOp.ori (IntOp.cmpi .sle x 0#32) (IntOp.cmpi .sge x 50257#32)) 4294967295#32 (IntOp.shrsi .vector x 8#32)

/-- The low bucket word of an id: all ones (−1) in the same cases, else the id's low eight bits. -/
def loWord (x : BitVec 32) : BitVec 32 :=
  Scalar.select (IntOp.ori (IntOp.cmpi .sle x 0#32) (IntOp.cmpi .sge x 50257#32)) 4294967295#32 (IntOp.andi x 255#32)

/-- One entry of a one-hot row: the truth value of "word `a` is bucket `h`", widened to 32 bits and read as a number. -/
def hot (a : BitVec 32) (h : ℕ) : EReal :=
  (((((IntOp.cmpi .eq a (BitVec.ofNat 32 h)).setWidth 32).toInt : ℤ) : ℝ) : EReal)

/-- A one-hot entry is 1 when the word is the bucket number and 0 otherwise. -/
private theorem hot_eq (a : BitVec 32) (h : ℕ) : hot a h = if a = BitVec.ofNat 32 h then 1 else 0 := by
  unfold hot IntOp.cmpi
  by_cases e : a = BitVec.ofNat 32 h
  · simp [e]
  · have e' : (a == BitVec.ofNat 32 h) = false := by simpa using e
    simp [e, e']

/-- The guard of both words fires exactly when the id, read signed, is at most 0 or at least 50257. -/
private theorem guard_eq (x : BitVec 32) :
    (IntOp.ori (IntOp.cmpi .sle x 0#32) (IntOp.cmpi .sge x 50257#32) = (1 : BitVec 1)) ↔ (x.toInt ≤ 0 ∨ 50257 ≤ x.toInt) := by
  unfold IntOp.ori IntOp.cmpi
  have h0 : (0#32).toInt = 0 := by decide
  have h1 : (50257#32).toInt = 50257 := by decide
  rw [BitVec.ofBool_or_ofBool]
  show BitVec.ofBool (x.sle 0#32 || (50257#32).sle x) = BitVec.ofBool true ↔ _
  rw [BitVec.ofBool_eq_iff_eq, Bool.or_eq_true, BitVec.sle_iff_toInt_le, BitVec.sle_iff_toInt_le, h0, h1]

/-- Outside the vocabulary (or at the pad id) both words are all ones. -/
private theorem hiWord_bad (x : BitVec 32) (h : x.toInt ≤ 0 ∨ 50257 ≤ x.toInt) : hiWord x = 4294967295#32 := by
  unfold hiWord Scalar.select
  rw [if_pos ((guard_eq x).2 h)]

private theorem loWord_bad (x : BitVec 32) (h : x.toInt ≤ 0 ∨ 50257 ≤ x.toInt) : loWord x = 4294967295#32 := by
  unfold loWord Scalar.select
  rw [if_pos ((guard_eq x).2 h)]

/-- Inside the vocabulary the high word is the id divided by 256. -/
private theorem hiWord_good (x : BitVec 32) (h : ¬ (x.toInt ≤ 0 ∨ 50257 ≤ x.toInt)) :
    (hiWord x).toNat = x.toNat / 256 := by
  unfold hiWord Scalar.select
  rw [if_neg (fun c => h ((guard_eq x).1 c))]
  unfold IntOp.shrsi
  have hm : x.msb = false := by
    rw [BitVec.msb_eq_false_iff_two_mul_lt]
    have := BitVec.toInt_eq_toNat_cond x
    have := x.isLt
    split_ifs at * <;> omega
  rw [if_pos (by decide), BitVec.toNat_sshiftRight'_of_msb_false hm]
  show x.toNat >>> 8 = _
  rw [Nat.shiftRight_eq_div_pow]

/-- Inside the vocabulary the low word is the id modulo 256. -/
private theorem loWord_good (x : BitVec 32) (h : ¬ (x.toInt ≤ 0 ∨ 50257 ≤ x.toInt)) :
    (loWord x).toNat = x.toNat % 256 := by
  unfold loWord Scalar.select
  rw [if_neg (fun c => h ((guard_eq x).1 c))]
  unfold IntOp.andi
  rw [BitVec.toNat_and]
  show x.toNat &&& (2 ^ 8 - 1) = _
  rw [Nat.and_two_pow_sub_one_eq_mod]

/-- The product of the two one-hot entries of an id at buckets (hi, lo) is 1 exactly when the id is counted in slot
    256·hi + lo and that slot is inside the vocabulary. -/
theorem hot_mul_hot (x : BitVec 32) (hi lo : Fin 256) :
    hot (hiWord x) hi.val * hot (loWord x) lo.val
      = if 256 * hi.val + lo.val < 50257 then hit x (256 * hi.val + lo.val) else 0 := by
  rw [hot_eq, hot_eq]
  have hhi := hi.isLt
  have hlo := lo.isLt
  have h0 : (0#32).toInt = 0 := by decide
  by_cases hb : x.toInt ≤ 0 ∨ 50257 ≤ x.toInt
  · -- both words are all ones, which is no bucket number below 256; and no slot below 50257 counts the id
    rw [hiWord_bad x hb]
    have ne1 : ¬ (4294967295#32 = BitVec.ofNat 32 hi.val) := by
      intro c
      have := congrArg BitVec.toNat c
      rw [BitVec.toNat_ofNat, BitVec.toNat_ofNat] at this
      omega
    rw [if_neg ne1, zero_mul]
    symm
    rw [ite_eq_right_iff]
    intro hv
    unfold hit
    rw [if_neg]
    rintro ⟨h1, h2⟩
    refine h2 (BitVec.eq_of_toInt_eq ?_)
    rw [h0]
    omega
  · -- a valid id: its sign bit is clear, the words are its quotient and remainder by 256
    have hH := hiWord_good x hb
    have hL := loWord_good x hb
    have hxn : x.toInt = (x.toNat : ℤ) ∧ 1 ≤ x.toNat ∧ x.toNat < 50257 := by
      have := BitVec.toInt_eq_toNat_cond x
      have := x.isLt
      split_ifs at * <;> omega
    obtain ⟨hxi, hx1, hx2⟩ := hxn
    have eH : (hiWord x = BitVec.ofNat 32 hi.val) ↔ x.toNat / 256 = hi.val := by
      rw [← BitVec.toNat_inj, hH, BitVec.toNat_ofNat, Nat.mod_eq_of_lt (show hi.val < 2 ^ 32 by omega)]
    have eL : (loWord x = BitVec.ofNat 32 lo.val) ↔ x.toNat % 256 = lo.val := by
      rw [← BitVec.toNat_inj, hL, BitVec.toNat_ofNat, Nat.mod_eq_of_lt (show lo.val < 2 ^ 32 by omega)]
    have eV : (x.toInt = ((256 * hi.val + lo.val : ℕ) : ℤ) ∧ x ≠ 0#32)
        ↔ (x.toNat / 256 = hi.val ∧ x.toNat % 256 = lo.val) := by
      constructor
      · rintro ⟨h1, _⟩
        omega
      · rintro ⟨h1, h2⟩
        refine ⟨by omega, ?_⟩
        intro c
        rw [c] at hx1
        exact absurd hx1 (by decide)
    unfold hit
    simp only [eH, eL, eV]
    by_cases cH : x.toNat / 256 = hi.val
    · by_cases cL : x.toNat % 256 = lo.val
      · have hv : 256 * hi.val + lo.val < 50257 := by omega
        rw [if_pos cH, if_pos cL, if_pos hv, if_pos ⟨cH, cL⟩, one_mul]
      · have nAB : ¬ (x.toNat / 256 = hi.val ∧ x.toNat % 256 = lo.val) := fun c => cL c.2
        rw [if_neg cL, mul_zero, if_neg nAB, ite_self]
    · have nAB : ¬ (x.toNat / 256 = hi.val ∧ x.toNat % 256 = lo.val) := fun c => cH c.1
      rw [if_neg cH, zero_mul, if_neg nAB, ite_self]

/-- A sum over pairs (hi, lo) of a function of 256·hi + lo is the sum over the 65536 slots, cut at the vocabulary's end. -/
theorem sum_hi_lo {M : Type*} [AddCommMonoid M] (f : ℕ → M) :
    ∑ hi : Fin 256, ∑ lo : Fin 256, f (256 * hi.val + lo.val)
      = ∑ v : Fin 50257, f v.val + ∑ v : Fin 15279, f (50257 + v.val) := by
  -- pairs (hi, lo) are the numbers 256·hi + lo below 256·256
  have h1 : ∑ hi : Fin 256, ∑ lo : Fin 256, f (256 * hi.val + lo.val)
      = ∑ v : Fin (256 * 256), f v.val := by
    rw [← Fintype.sum_prod_type' (fun (hi lo : Fin 256) => f (256 * hi.val + lo.val))]
    rw [← Equiv.sum_comp finProdFinEquiv (fun v : Fin (256 * 256) => f v.val)]
    refine Fintype.sum_congr _ _ (fun p => ?_)
    rw [finProdFinEquiv_apply_val, Nat.add_comm]
  -- 256·256 = 50257 + 15279, and a sum over an initial segment of length m + n splits at m
  have h2 : ∑ v : Fin (256 * 256), f v.val = ∑ v : Fin (50257 + 15279), f v.val :=
    Equiv.sum_comp (finCongr (by norm_num : 256 * 256 = 50257 + 15279)) (fun v => f v.val)
  rw [h1, h2, Fin.sum_univ_add]
  rfl

end Cert.BagOfWords

end
-- ==== Proof.KernelRow.lean ====
/-
  One block of the kernel's output, read at a row and a class.

  For each of the block's 16 rows the kernel builds two one-hot rows per position (one over the 256 high buckets, one over
  the 256 low buckets of the id there), multiplies them over the positions into a 256 × 256 table of pair counts, and pairs
  the table with the class's 256 × 256 sheet of weights: a sum over the low buckets, then over the high buckets.
-/
import proofs.«401654_j5420248727899_3_alg».proof.Proof.Gen.KernelIdeal.Frame
import proofs.«401654_j5420248727899_3_alg».proof.Proof.BagWords
import Idealize.ShloMosaic.Lib.Pipeline.Value
import Idealize.ShloMosaic.Lib.ValueLayout
import Idealize.ShloMosaic.PureOps.Ideal.Laws

noncomputable section

namespace Cert.KernelIdeal.RowValue

open Idealize.ShloMosaic Idealize.ShloMosaic.ValueIdx Cert.KernelIdeal Cert.KernelIdeal.Gen Cert.BagOfWords

/-! ## The one-hot rows -/

/-- A word per (row, position), spread along a third axis of 256 buckets and compared there with the bucket's number:
    at (row, position, bucket) the entry is the one-hot entry of that word at that bucket. -/
theorem onehot_apply (w : IVec S16x512 32) (r : Fin 16) (s : Fin 512) (h : Fin 256) :
    (truncf .bf16 (sitofp (F := Ideal) .f32 (extui 32 (cmpi .eq
        (broadcastTo S16x512x256 (shapeCast S16x512x1 w shapeCasts_S16x512_S16x512x1) broadcasts_S16x512x1_S16x512x256)
        (broadcastTo S16x512x256 (iota .tc S1x1x256 32 [2] iota_S1x1x256_d2_w32) broadcasts_S1x1x256_S16x512x256)) natLt_1_32))
      bitsLt_bf16_f32 : FVec Ideal S16x512x256 .bf16) (ix3 r s h) = hot (w (ix2 r s)) h.val := by
  have e1 : broadcastTo S16x512x256 (shapeCast S16x512x1 w shapeCasts_S16x512_S16x512x1) broadcasts_S16x512x1_S16x512x256 (ix3 r s h)
      = w (ix2 r s) := by
    refine (broadcastTo_apply _ broadcasts_S16x512x1_S16x512x256 (ix3 r s h) (ix3 r s (0 : Fin 1)) fun a => ?_).trans ?_
    · match a with
      | ⟨0, _⟩ => rfl
      | ⟨1, _⟩ => rfl
      | ⟨2, _⟩ => rfl
    · refine shapeCast_apply w shapeCasts_S16x512_S16x512x1 (ix3 r s (0 : Fin 1)) (ix2 r s) ?_
      rw [Shape.rowMajor_val_three, Shape.rowMajor_val_two]
      show r.val * 512 + s.val = (r.val * 512 + s.val) * 1 + 0
      omega
  have e2 : broadcastTo S16x512x256 (iota .tc S1x1x256 32 [2] iota_S1x1x256_d2_w32) broadcasts_S1x1x256_S16x512x256 (ix3 r s h)
      = BitVec.ofNat 32 h.val := by
    refine (broadcastTo_apply _ broadcasts_S1x1x256_S16x512x256 (ix3 r s h) (ix3 (0 : Fin 1) (0 : Fin 1) h) fun a => ?_).trans ?_
    · match a with
      | ⟨0, _⟩ => rfl
      | ⟨1, _⟩ => rfl
      | ⟨2, _⟩ => rfl
    · exact iota_single_apply .tc S1x1x256 32 2 iota_S1x1x256_d2_w32 (ix3 (0 : Fin 1) (0 : Fin 1) h)
  show ((((IntOp.cmpi .eq _ _).setWidth 32).toInt : ℝ) : EReal) = _
  rw [e1, e2]
  rfl

/-! ## The table of pair counts -/

/-- The batched product's left operand at an output entry (row, high, low) and a contracted position: the row. -/
theorem lhs_pairs_0 (j : S16x256x256.Idx) (q : dot_S16x512x256_S16x512x256_S16x256x256_1_1_2_2_0_0.contr.Idx) :
    (dot_S16x512x256_S16x512x256_S16x256x256_1_1_2_2_0_0.lhsIdx j q 0).val = (j 0).val := by
  unfold DotDims.lhsIdx
  rw [dif_pos (show (0 : Fin S16x512x256.rank) ∈ dot_S16x512x256_S16x512x256_S16x256x256_1_1_2_2_0_0.lhsBatch by decide)]
  rfl
/-- … the position. -/
theorem lhs_pairs_1 (j : S16x256x256.Idx) (q : dot_S16x512x256_S16x512x256_S16x256x256_1_1_2_2_0_0.contr.Idx) :
    (dot_S16x512x256_S16x512x256_S16x256x256_1_1_2_2_0_0.lhsIdx j q 1).val = (q ⟨0, by decide⟩).val :=
  dot_S16x512x256_S16x512x256_S16x256x256_1_1_2_2_0_0.lhsIdx_val_of_single rfl j q
/-- … the high bucket. -/
theorem lhs_pairs_2 (j : S16x256x256.Idx) (q : dot_S16x512x256_S16x512x256_S16x256x256_1_1_2_2_0_0.contr.Idx) :
    (dot_S16x512x256_S16x512x256_S16x256x256_1_1_2_2_0_0.lhsIdx j q 2).val = (j 1).val := by
  unfold DotDims.lhsIdx
  rw [dif_neg (show ¬(2 : Fin S16x512x256.rank) ∈ dot_S16x512x256_S16x512x256_S16x256x256_1_1_2_2_0_0.lhsBatch by decide),
    dif_pos (show (2 : Fin S16x512x256.rank) ∈ dot_S16x512x256_S16x512x256_S16x256x256_1_1_2_2_0_0.lhsNonContracting by decide)]
  rfl
/-- The right operand there: the row, -/
theorem rhs_pairs_0 (j : S16x256x256.Idx) (q : dot_S16x512x256_S16x512x256_S16x256x256_1_1_2_2_0_0.contr.Idx) :
    (dot_S16x512x256_S16x512x256_S16x256x256_1_1_2_2_0_0.rhsIdx j q 0).val = (j 0).val := by
  unfold DotDims.rhsIdx
  rw [dif_pos (show (0 : Fin S16x512x256.rank) ∈ dot_S16x512x256_S16x512x256_S16x256x256_1_1_2_2_0_0.rhsBatch by decide)]
  rfl
/-- … the position, -/
theorem rhs_pairs_1 (j : S16x256x256.Idx) (q : dot_S16x512x256_S16x512x256_S16x256x256_1_1_2_2_0_0.contr.Idx) :
    (dot_S16x512x256_S16x512x256_S16x256x256_1_1_2_2_0_0.rhsIdx j q 1).val = (q ⟨0, by decide⟩).val :=
  dot_S16x512x256_S16x512x256_S16x256x256_1_1_2_2_0_0.rhsIdx_val_of_single rfl j q
/-- … the low bucket. -/
theorem rhs_pairs_2 (j : S16x256x256.Idx) (q : dot_S16x512x256_S16x512x256_S16x256x256_1_1_2_2_0_0.contr.Idx) :
    (dot_S16x512x256_S16x512x256_S16x256x256_1_1_2_2_0_0.rhsIdx j q 2).val = (j 2).val := by
  unfold DotDims.rhsIdx
  rw [dif_neg (show ¬(2 : Fin S16x512x256.rank) ∈ dot_S16x512x256_S16x512x256_S16x256x256_1_1_2_2_0_0.rhsBatch by decide),
    dif_pos (show (2 : Fin S16x512x256.rank) ∈ dot_S16x512x256_S16x512x256_S16x256x256_1_1_2_2_0_0.rhsNonContracting by decide)]
  rfl

/-- The batched product of two (row, position, bucket) arrays into a zero table, at (row, high, low): the sum over the
    positions of the left array at (row, position, high) times the right array at (row, position, low). -/
theorem pairs_apply (A B : FVec Ideal S16x512x256 .bf16) (r : Fin 16) (hi lo : Fin 256) :
    matmul dot_S16x512x256_S16x512x256_S16x256x256_1_1_2_2_0_0 none A B (constant (F := Ideal) S16x256x256 .f32 0x00000000#32) (ix3 r hi lo)
      = ∑ s : Fin 512, A (ix3 r s hi) * B (ix3 r s lo) := by
  simp only [matmul]
  rw [Ideal.matmul_constant_zero_apply, ← Equiv.sum_comp (ValueIdx.contrEquiv1 dot_S16x512x256_S16x512x256_S16x256x256_1_1_2_2_0_0 512 rfl rfl).symm]
  refine Finset.sum_congr rfl fun s _ => ?_
  have hk := ValueIdx.contrEquiv1_symm_val dot_S16x512x256_S16x512x256_S16x256x256_1_1_2_2_0_0 512 rfl rfl s
  have el : dot_S16x512x256_S16x512x256_S16x256x256_1_1_2_2_0_0.lhsIdx (ix3 r hi lo) ((ValueIdx.contrEquiv1 dot_S16x512x256_S16x512x256_S16x256x256_1_1_2_2_0_0 512 rfl rfl).symm s) = ix3 r s hi := funext fun a => Fin.ext (by
    match a with
    | ⟨0, _⟩ => exact lhs_pairs_0 _ _
    | ⟨1, _⟩ => exact (lhs_pairs_1 _ _).trans hk
    | ⟨2, _⟩ => exact lhs_pairs_2 _ _)
  have er : dot_S16x512x256_S16x512x256_S16x256x256_1_1_2_2_0_0.rhsIdx (ix3 r hi lo) ((ValueIdx.contrEquiv1 dot_S16x512x256_S16x512x256_S16x256x256_1_1_2_2_0_0 512 rfl rfl).symm s) = ix3 r s lo := funext fun a => Fin.ext (by
    match a with
    | ⟨0, _⟩ => exact rhs_pairs_0 _ _
    | ⟨1, _⟩ => exact (rhs_pairs_1 _ _).trans hk
    | ⟨2, _⟩ => exact rhs_pairs_2 _ _)
  rw [el, er]

/-- The kernel's table of pair counts for a block of ids, at (row, high, low): the number of positions of the row whose id
    has that high and that low bucket word, as a sum of products of one-hot entries. -/
theorem pair_count (x0 : Vec Ideal S16x512 .i32) (r : Fin 16) (hi lo : Fin 256) :
    k0_pay2 (F := Ideal) x0 (ix3 r hi lo)
      = ∑ s : Fin 512, hot (hiWord (x0 (ix2 r s))) hi.val * hot (loWord (x0 (ix2 r s))) lo.val := by
  unfold k0_pay2
  refine (pairs_apply _ _ r hi lo).trans ?_
  refine Finset.sum_congr rfl fun s _ => ?_
  rw [onehot_apply, onehot_apply]
  rfl

/-! ## A class's sheet of weights, spread over the rows -/

/-- Slice `c` of the sheets (one class's 256 × 256 sheet), with its unit axis dropped and put back, broadcast over the 16
    rows: at (row, high, low) it is the sheets' entry at (class, high, low). -/
theorem sheet_apply (x1 : Vec Ideal S2x256x256 .f32) (off : Fin 3 → Nat) (hs : S2x256x256.Slices off S1x256x256)
    (c : Fin 2) (h0 : off 0 = c.val) (h1 : off 1 = 0) (h2 : off 2 = 0) (r : Fin 16) (hi lo : Fin 256) :
    broadcastTo S16x256x256 (shapeCast S1x256x256 (shapeCast S256x256
        (extractStridedSlice S1x256x256 off (k0_pay3 (F := Ideal) x1) hs) shapeCasts_S1x256x256_S256x256)
        shapeCasts_S256x256_S1x256x256) broadcasts_S1x256x256_S16x256x256 (ix3 r hi lo)
      = x1 (ix3 c hi lo) := by
  unfold k0_pay3
  rw [shapeCast_shapeCast, shapeCast_self]
  refine (broadcastTo_apply _ broadcasts_S1x256x256_S16x256x256 (ix3 r hi lo) (ix3 (0 : Fin 1) hi lo) fun a => ?_).trans ?_
  · match a with
    | ⟨0, _⟩ => rfl
    | ⟨1, _⟩ => rfl
    | ⟨2, _⟩ => rfl
  · refine extractStridedSlice_apply off x1 hs (ix3 (0 : Fin 1) hi lo) (ix3 c hi lo) fun a => ?_
    match a with
    | ⟨0, _⟩ => show c.val = off 0 + 0; omega
    | ⟨1, _⟩ => show hi.val = off 1 + hi.val; omega
    | ⟨2, _⟩ => show lo.val = off 2 + lo.val; omega

/-! ## The two sums over the buckets -/

/-- A (row, high, low) table summed over the low buckets and then over the high buckets, at a row. -/
theorem bucket_sums (T : FVec Ideal S16x256x256 .f32) (r : Fin 16) :
    multiReduction (F := Ideal) .add [1] S16
        (multiReduction (F := Ideal) .add [2] S16x256 T 0x00000000#32 reduces_S16x256x256_S16x256 (.inl rfl) rfl)
        0x00000000#32 reduces_S16x256_S16 (.inl rfl) rfl (ix1 r)
      = ∑ hi : Fin 256, ∑ lo : Fin 256, T (ix3 r hi lo) := by
  refine (Ideal.multiReduction_add_single _ _ reduces_S16x256_S16 _ _ (ix1 r)).trans ?_
  refine Finset.sum_congr rfl fun hi _ => ?_
  refine (Ideal.multiReduction_add_single _ _ reduces_S16x256x256_S16x256 _ _ _).trans ?_
  refine Finset.sum_congr rfl fun lo _ => ?_
  refine congrArg T (funext fun a => Fin.ext ?_)
  match a with
  | ⟨0, _⟩ => rfl
  | ⟨1, _⟩ => rfl
  | ⟨2, _⟩ => rfl

/-- Class 0's column: the pair counts against class 0's sheet. -/
theorem class0_apply (x0 : Vec Ideal S16x512 .i32) (x1 : Vec Ideal S2x256x256 .f32) (r : Fin 16) :
    k0_pay4 (F := Ideal) x0 x1 (ix1 r)
      = ∑ hi : Fin 256, ∑ lo : Fin 256,
          (∑ s : Fin 512, hot (hiWord (x0 (ix2 r s))) hi.val * hot (loWord (x0 (ix2 r s))) lo.val) * x1 (ix3 (0 : Fin 2) hi lo) := by
  unfold k0_pay4
  refine (bucket_sums _ r).trans ?_
  refine Finset.sum_congr rfl fun hi _ => Finset.sum_congr rfl fun lo _ => ?_
  refine (mulf_apply _ _ _).trans ?_
  rw [pair_count, sheet_apply x1 _ _ (0 : Fin 2) rfl rfl rfl]

/-- Class 1's table before its sums: the pair counts times class 1's sheet. -/
theorem class1_apply (x0 : Vec Ideal S16x512 .i32) (x1 : Vec Ideal S2x256x256 .f32) (r : Fin 16) (hi lo : Fin 256) :
    k0_pay5 (F := Ideal) x0 x1 (ix3 r hi lo)
      = (∑ s : Fin 512, hot (hiWord (x0 (ix2 r s))) hi.val * hot (loWord (x0 (ix2 r s))) lo.val) * x1 (ix3 (1 : Fin 2) hi lo) := by
  unfold k0_pay5
  refine (mulf_apply _ _ _).trans ?_
  rw [pair_count, sheet_apply x1 _ _ (1 : Fin 2) rfl rfl rfl]

/-! ## The two columns side by side -/

/-- A 16-vector as a 16 × 1 column. -/
theorem column_apply (v : FVec Ideal S16 .f32) (r : Fin 16) :
    shapeCast S16x1 v shapeCasts_S16_S16x1 (ix2 r (0 : Fin 1)) = v (ix1 r) := by
  refine shapeCast_apply v shapeCasts_S16_S16x1 (ix2 r (0 : Fin 1)) (ix1 r) ?_
  rw [Shape.rowMajor_val_one, Shape.rowMajor_val_two]
  show r.val = r.val * 1 + 0
  omega

/-- The stored block's column 0 is the first vector. -/
theorem store_col0 (v39 : FVec Ideal S16 .f32) (v44 : FVec Ideal S16x256x256 .f32) (r : Fin 16) :
    k0_pay1 (F := Ideal) v39 v44 (ix2 r (0 : Fin 2)) = v39 (ix1 r) := by
  unfold k0_pay1
  refine (concatenate_pair_apply_left (1 : Fin S16x2.rank) _ _ concatenates_S16x1_S16x1_S16x2_d1 (ix2 r (0 : Fin 2)) rfl
    (ix2 r (0 : Fin 1)) fun b => ?_).trans (column_apply v39 r)
  match b with
  | ⟨0, _⟩ => rfl
  | ⟨1, _⟩ => rfl

/-- The stored block's column 1 is the double sum of the second table. -/
theorem store_col1 (v39 : FVec Ideal S16 .f32) (v44 : FVec Ideal S16x256x256 .f32) (r : Fin 16) :
    k0_pay1 (F := Ideal) v39 v44 (ix2 r (1 : Fin 2)) = ∑ hi : Fin 256, ∑ lo : Fin 256, v44 (ix3 r hi lo) := by
  unfold k0_pay1
  refine (concatenate_pair_apply_right (1 : Fin S16x2.rank) _ _ concatenates_S16x1_S16x1_S16x2_d1 (ix2 r (1 : Fin 2)) rfl rfl
    (ix2 r (0 : Fin 1)) (fun b hb => ?_) rfl).trans ((column_apply _ r).trans (bucket_sums v44 r))
  match b with
  | ⟨0, _⟩ => rfl
  | ⟨1, _⟩ => exact absurd rfl hb

/-! ## The block -/

/-- What the body stores for row `r` and class `c` of its block, from the block of ids `x0` and the weights' sheets `x1`. -/
theorem out_block_apply (x0 : Vec Ideal S16x512 .i32) (x1 : Vec Ideal S2x256x256 .f32) (r : Fin 16) (c : Fin 2) :
    Gen.out0_2 (F := Ideal) x0 x1 (ix2 r c)
      = ∑ hi : Fin 256, ∑ lo : Fin 256,
          (∑ s : Fin 512, hot (hiWord (x0 (ix2 r s))) hi.val * hot (loWord (x0 (ix2 r s))) lo.val) * x1 (ix3 c hi lo) := by
  have hz : (![0, 0] : Fin 2 → Nat) = fun _ => 0 := funext fun a => by fin_cases a <;> rfl
  have hz3 : (![0, 0, 0] : Fin 3 → Nat) = fun _ => 0 := funext fun a => by fin_cases a <;> rfl
  unfold Gen.out0_2
  rw [View.canon_unit_zero hz, View.ld_unit_zero (S := S16x512) hz, View.ld_unit_zero (S := S2x256x256) hz3]
  match c with
  | ⟨0, _⟩ => exact (store_col0 _ _ r).trans (class0_apply x0 x1 r)
  | ⟨1, _⟩ =>
    refine (store_col1 _ _ r).trans ?_
    exact Finset.sum_congr rfl fun hi _ => Finset.sum_congr rfl fun lo _ => class1_apply x0 x1 r hi lo

end Cert.KernelIdeal.RowValue

end
-- ==== Proof.KernelArray.lean ====
/-
  The kernel's output array after the run.

  The grid has 32 points; point t works on rows 16·t … 16·t + 15 of the ids and writes rows 16·t … 16·t + 15 of the output,
  with the weights' sheets whole at every point. What a point writes for a row is that row's table of pair counts against
  the sheets, a function of the row alone; the 32 blocks tile the 512 rows, so after the run the array holds that function
  at every row.
-/
import proofs.«401654_j5420248727899_3_alg».proof.Proof.Gen.KernelIdeal.Frame
import proofs.«401654_j5420248727899_3_alg».proof.Proof.KernelRow
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.ArrayValue

open Cert.KernelIdeal Cert.KernelIdeal.Gen Cert.BagOfWords

variable (m : (ℓ : Loc nD τ sig) → Buf (Elt Ideal) ℓ) (ρ : Dev nD → PrngReg)

/-- Row `b` and class `c` of the output: the row's table of pair counts — over the positions, the product of the one-hot
    entries of the id's high and low bucket words — against class `c`'s sheet of weights. -/
def pairRow (ids : IVec S512x512 32) (w : FVec Ideal S2x256x256 .f32) (b : Fin 512) (c : Fin 2) : EReal :=
  ∑ hi : Fin 256, ∑ lo : Fin 256,
    (∑ s : Fin 512, hot (hiWord (ids (ix2 b s))) hi.val * hot (loWord (ids (ix2 b s))) lo.val) * w (ix3 c hi lo)

/-- The whole output array as that function of the ids and the sheets. -/
def pairArr (ids : IVec S512x512 32) (w : FVec Ideal S2x256x256 .f32) : FVec Ideal S512x2 .f32 :=
  fun i => pairRow ids w (i 0) (i 1)

/-- The ids and the weights' sheets as the region finds them. -/
abbrev idsArr (c : Dev nD) : IVec S512x512 32 := V m c main_arg0
abbrev sheets (c : Dev nD) : FVec Ideal S2x256x256 .f32 := V m c main_v1

/-- The windows' block indices over the grid: the ids' and the output's blocks move down with the point, the sheets' block
    stays. -/
theorem idx_facts : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

theorem point_lt (t : Fin cfg0.N) : t.val < 32 :=
  lt_of_lt_of_eq t.isLt N_0

/-- Row `r` of the ids' block at point `t` is row 16·t + r of the ids. -/
theorem ids_block (c : Dev nD) (t : Fin cfg0.N) (r : Fin 16) (s : Fin 512) :
    (iblk m c 0 t : Vec Ideal S16x512 .i32) (ix2 r s)
      = idsArr m c (ix2 (⟨16 * t.val + r.val, by have := point_lt t; omega⟩ : Fin 512) s) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 16 + 1 * r.val = 16 * t.val + r.val; rw [e0]; omega
  | ⟨1, _⟩ => show win0_0.index t (1 : Fin 2) * 512 + 1 * s.val = s.val; rw [e1]; omega

/-- The sheets' block at any point is the sheets. -/
theorem sheets_block (c : Dev nD) (t : Fin cfg0.N) (cc : Fin 2) (hi lo : Fin 256) :
    (iblk m c 1 t : Vec Ideal S2x256x256 .f32) (ix3 cc hi lo) = sheets m c (ix3 cc hi lo) := by
  obtain ⟨-, -, e2, e3, e4, -⟩ := idx_facts t
  unfold iblk
  rw [View.read_apply]
  show V m c main_v1 _ = V m c main_v1 _
  congr 1
  funext a
  apply Fin.ext
  match a with
  | ⟨0, _⟩ => show win0_1.index t (0 : Fin 3) * 2 + 1 * cc.val = cc.val; rw [e2]; omega
  | ⟨1, _⟩ => show win0_1.index t (1 : Fin 3) * 256 + 1 * hi.val = hi.val; rw [e3]; omega
  | ⟨2, _⟩ => show win0_1.index t (2 : Fin 3) * 256 + 1 * lo.val = lo.val; rw [e4]; omega

/-- The body's block at an index `j`, with the row and the class read off `j`'s two coordinates. -/
theorem out_block_at (x0 : Vec Ideal S16x512 .i32) (x1 : Vec Ideal S2x256x256 .f32) (j : S16x2.Idx) :
    out0_2 (F := Ideal) x0 x1 j
      = ∑ hi : Fin 256, ∑ lo : Fin 256,
          (∑ s : Fin 512, hot (hiWord (x0 (ix2 (⟨(j 0).val, (j 0).isLt⟩ : Fin 16) s))) hi.val
              * hot (loWord (x0 (ix2 (⟨(j 0).val, (j 0).isLt⟩ : Fin 16) s))) lo.val)
            * x1 (ix3 (⟨(j 1).val, (j 1).isLt⟩ : Fin 2) hi lo) := by
  obtain ⟨r, cc, rfl⟩ : ∃ (r : Fin 16) (cc : Fin 2), j = ix2 r cc := ⟨j 0, j 1, eq_ix2 j⟩
  exact Cert.KernelIdeal.RowValue.out_block_apply x0 x1 r cc

/-- What point `t` writes back is block `t` of the pair-count array of the ids and the sheets as the region finds them:
    row `r` of the block sits at row 16·t + r of the output and reads rows 16·t + r of the ids. -/
theorem flushed_eq (c : Dev nD) (t : Fin cfg0.N) :
    (dats m 0 c).flushed 2 t = ((cfg0.win 2).blk t).view.read (Elt Ideal) (pairArr (idsArr m c) (sheets m c)) := by
  show (cfg0.win 2).cut (grid0.coords t) ((dats m 0 c).after 2 t) = _
  rw [after0_2]
  obtain ⟨-, -, -, -, -, e5, e6⟩ := idx_facts t
  have ht := point_lt t
  funext j
  have hj0 : (j 0).val < 16 := (j 0).isLt
  have hj1 : (j 1).val < 2 := (j 1).isLt
  have hemb : ((cfg0.win 2).blk t).view.emb j
      = (ix2 (⟨16 * t.val + (j 0).val, by omega⟩ : Fin 512) (⟨(j 1).val, hj1⟩ : Fin 2) : S512x2.Idx) := by
    funext a
    apply Fin.ext
    match a with
    | ⟨0, _⟩ => show win0_2.index t (0 : Fin 2) * 16 + 1 * (j 0).val = 16 * t.val + (j 0).val; rw [e5]; omega
    | ⟨1, _⟩ => show win0_2.index t (1 : Fin 2) * 2 + 1 * (j 1).val = (j 1).val; rw [e6]; omega
  show out0_2 (iblk m c 0 t) (iblk m c 1 t) j
    = pairArr (idsArr m c) (sheets m c) (((cfg0.win 2).blk t).view.emb j)
  rw [hemb]
  refine (out_block_at (iblk m c 0 t) (iblk m c 1 t) j).trans ?_
  show _ = pairRow (idsArr m c) (sheets m c) _ _
  unfold pairRow
  refine Finset.sum_congr rfl fun hi _ => Finset.sum_congr rfl fun lo _ => ?_
  rw [sheets_block m c t ⟨(j 1).val, hj1⟩ hi lo]
  refine congrArg (fun z : EReal => z * sheets m c (ix3 (⟨(j 1).val, hj1⟩ : Fin 2) hi lo)) ?_
  refine Finset.sum_congr rfl fun s _ => ?_
  rw [ids_block m c t ⟨(j 0).val, hj0⟩ s]

/-- An index of the output is in point `t`'s block when its row is one of the block's sixteen. -/
theorem mem_blk (t : Fin cfg0.N) (i : S512x2.Idx) :
    i ∈ ((cfg0.win 2).blk t).view.set
      ↔ ∀ a : Fin 2, win0_2.index t a * S16x2.size a ≤ (i a).val ∧ (i a).val < win0_2.index t a * S16x2.size a + S16x2.size a := by
  show i ∈ ((View.whole main_v2).slice (win0_2.rect t)).set ↔ _
  rw [View.set_slice_whole, Rect.mem_set_unit]
  exact Iff.rfl

/-- Every index of the output lies in the block of the point numbered by its row divided by sixteen. -/
theorem covered (i : S512x2.Idx) : ∃ t : Fin cfg0.N, (cfg0.win 2).flush t = true ∧ i ∈ ((cfg0.win 2).blk t).view.set := by
  have hi0 : (i 0).val < 512 := (i 0).isLt
  have hi1 : (i 1).val < 2 := (i 1).isLt
  let t : Fin cfg0.N := ⟨(i 0).val / 16, lt_of_lt_of_eq (by omega : (i 0).val / 16 < 32) N_0.symm⟩
  obtain ⟨-, -, -, -, -, e5, e6⟩ := idx_facts t
  refine ⟨t, flush0_2 t, ?_⟩
  rw [mem_blk]
  intro a
  have ht : t.val = (i 0).val / 16 := rfl
  match a with
  | ⟨0, _⟩ => show win0_2.index t (0 : Fin 2) * 16 ≤ (i 0).val ∧ (i 0).val < win0_2.index t (0 : Fin 2) * 16 + 16; rw [e5, ht]; omega
  | ⟨1, _⟩ => show win0_2.index t (1 : Fin 2) * 2 ≤ (i 1).val ∧ (i 1).val < win0_2.index t (1 : Fin 2) * 2 + 2; rw [e6]; omega

/-- The output array after the run is the pair-count array of the ids and the sheets. -/
theorem final (c : Dev nD) : (dats m 0 c).arrAt 2 cfg0.N = pairArr (idsArr m c) (sheets m c) :=
  (dats m 0 c).arrAt_eq_of_cover 2 (pairArr (idsArr m c) (sheets m c)) (fun t _ => flushed_eq m c t) covered

end Cert.KernelIdeal.ArrayValue

end
-- ==== Proof.KernelSheets.lean ====
/-
  The weights' sheets the kernel reads.

  Before the region the weight matrix (2 classes × 50257 slots) is padded with zeros on the right to 65536 slots a class
  and then laid out as 2 × 256 × 256: the entry at (class, hi, lo) is the padded row's slot 256·hi + lo, that is the weight
  of that slot when it is inside the vocabulary and zero past its end.
-/
import proofs.«401654_j5420248727899_3_alg».proof.Proof.Gen.KernelIdeal.Frame
import Idealize.ShloMosaic.Lib.Pipeline.Value
import Idealize.ShloMosaic.Lib.KernelVsHost
import Idealize.ShloMosaic.Lib.StableHlo.Run

noncomputable section

open Idealize.ShloMosaic Idealize.ShloMosaic.TcCoe Idealize.SL.Sem Idealize.ShloMosaic.ValueIdx Idealize.ShloMosaic.StableHlo

namespace Cert.KernelIdeal.SheetValue

open Cert.KernelIdeal Cert.KernelIdeal.Gen

variable (m : (ℓ : Loc nD τ sig) → Buf (Elt Ideal) ℓ)

/-- The padded weights: each class's row followed by 15279 entries of the padding value. -/
abbrev padded (W : FVec Ideal S2x50257 .f32) : FVec Ideal S2x65536 .f32 :=
  pad S2x65536 ![0, 0] ![0, 15279] ![0, 0] W (sitofp (F := Ideal) .f32 (constantI S_ 32 0#32))
    pads_S2x50257_S2x65536_000_0152790 h_S_

/-- What the region finds in the sheets' array: the padded weights laid out as 2 × 256 × 256. -/
theorem sheets_eq (c : Dev nD) :
    (V m c main_v1 : S2x256x256.Idx → EReal)
      = shapeCast S2x256x256 (padded (m ((c : Thread nD τ).loc main_arg1))) shapeCasts_S2x65536_S2x256x256 := by
  dsimp only [V, V0]
  simp only [hostOps0, hostOps0_1, hostOps0_2, List.flatten_cons, List.flatten_nil, List.append_nil, List.cons_append,
    List.nil_append]
  after_results
  rfl

/-- The padded weights at a slot inside the vocabulary are the weights there. -/
theorem padded_inside (W : FVec Ideal S2x50257 .f32) (cc : Fin 2) (v : Fin 65536) (h : v.val < 50257) :
    padded W (ix2 cc v) = W (ix2 cc ⟨v.val, h⟩) := by
  refine pad_apply_of_inside _ _ _ W _ pads_S2x50257_S2x65536_000_0152790 h_S_ (ix2 cc v) (ix2 cc ⟨v.val, h⟩) fun a => ?_
  match a with
  | ⟨0, _⟩ => show cc.val = 0 + cc.val * (0 + 1); omega
  | ⟨1, _⟩ => show v.val = 0 + v.val * (0 + 1); omega

/-- Past the vocabulary's end they are zero. -/
theorem padded_outside (W : FVec Ideal S2x50257 .f32) (cc : Fin 2) (v : Fin 65536) (h : ¬ v.val < 50257) :
    padded W (ix2 cc v) = 0 := by
  refine (pad_apply_of_not_inside _ _ _ W _ pads_S2x50257_S2x65536_000_0152790 h_S_ (ix2 cc v) (1 : Fin 2) ?_).trans ?_
  · show ¬(0 ≤ v.val ∧ (v.val - 0) % (0 + 1) = 0 ∧ (v.val - 0) / (0 + 1) < 50257)
    intro hh
    have := hh.2.2
    simp only [Nat.sub_zero, Nat.zero_add, Nat.div_one] at this
    exact h this
  · show (((0#32 : BitVec 32).toInt : ℝ) : EReal) = 0
    simp

/-- The sheets at (class, hi, lo): the weight of slot 256·hi + lo inside the vocabulary, zero past it. -/
theorem sheets_apply (c : Dev nD) (cc : Fin 2) (hi lo : Fin 256) :
    (V m c main_v1 : S2x256x256.Idx → EReal) (ix3 cc hi lo)
      = (if h : 256 * hi.val + lo.val < 50257
        then ((m ((c : Thread nD τ).loc main_arg1) : S2x50257.Idx → EReal) (ix2 cc ⟨256 * hi.val + lo.val, h⟩) : EReal)
        else (0 : EReal)) := by
  have hv : 256 * hi.val + lo.val < 65536 := by have := hi.isLt; have := lo.isLt; omega
  rw [sheets_eq m c]
  refine (shapeCast_apply _ shapeCasts_S2x65536_S2x256x256 (ix3 cc hi lo) (ix2 cc ⟨256 * hi.val + lo.val, hv⟩) ?_).trans ?_
  · rw [Shape.rowMajor_val_two, Shape.rowMajor_val_three]
    show cc.val * 65536 + (256 * hi.val + lo.val) = (cc.val * 256 + hi.val) * 256 + lo.val
    omega
  · by_cases h : 256 * hi.val + lo.val < 50257
    · rw [dif_pos h]; exact padded_inside _ cc ⟨_, hv⟩ h
    · rw [dif_neg h]; exact padded_outside _ cc ⟨_, hv⟩ h

end Cert.KernelIdeal.SheetValue

end
-- ==== Proof.KernelLogits.lean ====
/-
  The kernel program's result is the bag-of-words logits.

  A row's table of pair counts at (hi, lo) is the row's histogram at slot 256·hi + lo when that slot is inside the
  vocabulary, and zero past it (no id is split into such a pair). The sheets hold the weight of slot 256·hi + lo, zero past
  the vocabulary. So the table against a class's sheet, summed over all 65536 pairs, is the histogram against the class's
  weights summed over the 50257 slots, the remaining pairs adding zeros. The lines after the region add the class's bias.
-/
import proofs.«401654_j5420248727899_3_alg».proof.Proof.KernelArray
import proofs.«401654_j5420248727899_3_alg».proof.Proof.KernelSheets
import Idealize.ShloMosaic.Lib.StableHlo.Run

noncomputable section

open Idealize.ShloMosaic Idealize.ShloMosaic.TcCoe Idealize.SL.Sem Idealize.ShloMosaic.ValueIdx Idealize.ShloMosaic.StableHlo

namespace Cert.KernelIdeal.LogitValue

open Cert.KernelIdeal Cert.KernelIdeal.Gen Cert.KernelIdeal.ArrayValue Cert.KernelIdeal.SheetValue Cert.BagOfWords

/-- A row's pair count at (hi, lo): its histogram at slot 256·hi + lo inside the vocabulary, zero past it. -/
theorem pair_count_eq (ids : IVec S512x512 32) (b : Fin 512) (hi lo : Fin 256) :
    (∑ s : Fin 512, hot (hiWord (ids (ix2 b s))) hi.val * hot (loWord (ids (ix2 b s))) lo.val)
      = if 256 * hi.val + lo.val < 50257 then count ids b (256 * hi.val + lo.val) else 0 := by
  simp only [hot_mul_hot]
  by_cases h : 256 * hi.val + lo.val < 50257
  · simp only [if_pos h]; rfl
  · simp only [if_neg h, Finset.sum_const_zero]

/-- A row's pair counts against sheets that hold the weights padded with zeros: the row's histogram against the weights. -/
theorem pairRow_eq (ids : IVec S512x512 32) (W : FVec Ideal S2x50257 .f32) (w : FVec Ideal S2x256x256 .f32)
    (hw : ∀ (cc : Fin 2) (hi lo : Fin 256), w (ix3 cc hi lo)
      = (if h : 256 * hi.val + lo.val < 50257 then (W (ix2 cc ⟨256 * hi.val + lo.val, h⟩) : EReal) else (0 : EReal)))
    (b : Fin 512) (c : Fin 2) :
    pairRow ids w b c = ∑ v : Fin 50257, count ids b v.val * W (ix2 c v) := by
  unfold pairRow
  let g : ℕ → EReal := fun v => if h : v < 50257 then count ids b v * W (ix2 c ⟨v, h⟩) else 0
  have hterm : ∀ hi lo : Fin 256,
      (∑ s : Fin 512, hot (hiWord (ids (ix2 b s))) hi.val * hot (loWord (ids (ix2 b s))) lo.val) * w (ix3 c hi lo)
        = g (256 * hi.val + lo.val) := by
    intro hi lo
    rw [pair_count_eq, hw]
    show _ = (if h : 256 * hi.val + lo.val < 50257 then _ else _)
    by_cases h : 256 * hi.val + lo.val < 50257
    · rw [if_pos h, dif_pos h, dif_pos h]
    · rw [if_neg h, dif_neg h, dif_neg h, zero_mul]
  have h1 : ∀ v : Fin 50257, g v.val = count ids b v.val * W (ix2 c v) := fun v => by
    show (if h : v.val < 50257 then _ else _) = _
    rw [dif_pos v.isLt]
  have h2 : ∀ v : Fin 15279, g (50257 + v.val) = 0 := fun v => by
    show (if h : 50257 + v.val < 50257 then _ else _) = _
    rw [dif_neg (by omega)]
  simp only [hterm]
  rw [sum_hi_lo g]
  simp only [h1, h2, Finset.sum_const_zero, add_zero]

/-- The bias of a class, spread over one row and then over the 512 rows, read at a row and a class. -/
theorem bias_rows (x : FVec Ideal S2 .f32) (b : Fin 512) (cc : Fin 2) :
    broadcastInDim S512x2 ![0, 1] bcast_S1x2_S512x2_0_1 (broadcastInDim S1x2 ![1] bcast_S2_S1x2_1 x) (ix2 b cc)
      = x (ix1 cc) := by
  refine (broadcastInDim_apply _ bcast_S1x2_S512x2_0_1 _ (ix2 b cc) (ix2 (0 : Fin 1) cc) fun a => ?_).trans ?_
  · match a with
    | ⟨0, _⟩ => show 0 = if (1 : Nat) = 1 then 0 else b.val; rw [if_pos rfl]
    | ⟨1, _⟩ => show cc.val = if (2 : Nat) = 1 then 0 else cc.val; rw [if_neg (by decide)]
  · refine broadcastInDim_apply _ bcast_S2_S1x2_1 x (ix2 (0 : Fin 1) cc) (ix1 cc) fun a => ?_
    match a with
    | ⟨0, _⟩ => show cc.val = if (2 : Nat) = 1 then 0 else cc.val; rw [if_neg (by decide)]

variable (m : (ℓ : Loc nD τ sig) → Buf (Elt Ideal) ℓ) (ρ : Dev nD → PrngReg)

/-- The program's result buffer after the lines that follow the region: the logits of the argument arrays. -/
theorem result_eq (c : Dev nD) :
    (Pipeline.afterTail₀ cfgs (dats m) 0 (V0 m) [hostOps1] c main_v5 : S512x2.Idx → EReal)
      = logits (m ((c : Thread nD τ).loc main_arg0)) (m ((c : Thread nD τ).loc main_arg1)) (m ((c : Thread nD τ).loc main_arg2)) := by
  unfold Pipeline.afterTail₀
  show StableHlo.after hostOps1 _ (Proc.devRef .tc main_v5) = _
  after_results
  have hA : (Pipeline.withArrays (cfgs 0).spec c (V0 m c) (fun w => (dats m 0 c).arrAt w (cfgs 0).N) (Proc.devRef .tc main_v2)
      : S512x2.Idx → EReal) = pairArr (idsArr m c) (sheets m c) :=
    (Pipeline.withArrays_arr spec0 launch0.win.arr_inj c _ _ 2).trans (final m c)
  have hB : (Pipeline.withArrays (cfgs 0).spec c (V0 m c) (fun w => (dats m 0 c).arrAt w (cfgs 0).N) (Proc.devRef .tc main_arg2)
      : S2.Idx → EReal) = m ((c : Thread nD τ).loc main_arg2) :=
    (Pipeline.withArrays_of_ne _ c (V0 m c) _ main_arg2 (by exact (by decide : ∀ w, Pipeline.arrRef spec0 w ≠ main_arg2))).trans
      (V_main_arg2 m c)
  rw [hA, hB]
  funext j
  obtain ⟨b, cc, rfl⟩ : ∃ (b : Fin 512) (cc : Fin 2), j = ix2 b cc := ⟨j 0, j 1, eq_ix2 j⟩
  show pairRow (idsArr m c) (sheets m c) b cc + _ = logitsAt _ _ _ b cc
  unfold logitsAt
  rw [bias_rows, pairRow_eq (idsArr m c) (m ((c : Thread nD τ).loc main_arg1)) (sheets m c) (sheets_apply m c) b cc]
  show (∑ v : Fin 50257, count (V m c main_arg0) b v.val * _) + _ = _
  rw [V_main_arg0 m c]

/-- Every run of the kernel program ends with the logits of the argument arrays in its result buffer, the argument arrays
    unchanged. -/
theorem kernel_run : θ_run defs (onTc (τ := τ) (main (F := Ideal))) ⟨m, fun _ => 0, ρ⟩ (fun r => ∀ c : Dev nD,
      r.2.mem ((c.tc : Thread nD τ).loc main_v5)
        = logits (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v5 (Pipeline.mem_restRefs_of main_v5 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.LogitValue

end
-- ==== Proof.lean ====
/- The proof of `Cert.Claim` (proofs.«401654_j5420248727899_3_alg».proof.Defs): a bag-of-words classifier's kernel against its reference, over the
   extended reals, for token ids that are not negative.

   Both programs compute, for a row b of 512 token ids and a class c, the sum over the vocabulary's 50257 slots of the
   row's histogram (slot v counts the positions holding id v; the pad id 0 is never counted; an id outside the vocabulary
   is counted nowhere) times the class's weight of the slot, plus the class's bias.
   The reference scatters a 1 per counted position into a zero matrix of rows × slots and contracts it with the weights;
   it first moves a negative id up by the vocabulary's size, which is where the precondition "no id is negative" is used
   (the kernel drops negative ids instead).
   The kernel splits an id v into the pair (v / 256, v mod 256), counts pairs with a product of two one-hot arrays over
   the positions, and pairs the 256 × 256 table of pair counts with the weights laid out as 256 × 256 after zero padding
   to 65536 slots: slot by slot the same products, the slots past the vocabulary adding zeros. No distributive law is
   needed, so the finiteness of the weights is not used.
   Modules: BagCount (the function both sides compute), BagWords (an id's bucket words; sums over pairs of buckets),
   RefBag (the reference is that function), NonNeg (the precondition's last conjunct read at a position), KernelRow (one
   block of the kernel's output at a row and a class), KernelArray (the output array after the run), KernelSheets (the
   padded weights read at a pair), KernelLogits (the kernel program's result), LibElemGS (a scatter-add of single
   elements read at an index). -/
import proofs.«401654_j5420248727899_3_alg».proof.Defs
import proofs.«401654_j5420248727899_3_alg».proof.Proof.Gen.Kernel
import proofs.«401654_j5420248727899_3_alg».proof.Proof.Gen.Kernel.Skeleton
import proofs.«401654_j5420248727899_3_alg».proof.Proof.Gen.Kernel.Launch
import proofs.«401654_j5420248727899_3_alg».proof.Proof.Gen.Kernel.Points
import proofs.«401654_j5420248727899_3_alg».proof.Proof.Gen.Kernel.Frame
import proofs.«401654_j5420248727899_3_alg».proof.Proof.Gen.KernelIdeal
import proofs.«401654_j5420248727899_3_alg».proof.Proof.Gen.KernelIdeal.Skeleton
import proofs.«401654_j5420248727899_3_alg».proof.Proof.Gen.KernelIdeal.Launch
import proofs.«401654_j5420248727899_3_alg».proof.Proof.Gen.KernelIdeal.Points
import proofs.«401654_j5420248727899_3_alg».proof.Proof.Gen.KernelIdeal.Frame
import proofs.«401654_j5420248727899_3_alg».proof.Proof.Gen.ReferenceIdeal
import proofs.«401654_j5420248727899_3_alg».proof.Proof.Gen.ReferenceIdeal.Run
import proofs.«401654_j5420248727899_3_alg».proof.Proof.Gen.ReferenceIdeal.Read
import proofs.«401654_j5420248727899_3_alg».proof.Proof.Gen.Pre_finite_inputs
import proofs.«401654_j5420248727899_3_alg».proof.Proof.RefBag
import proofs.«401654_j5420248727899_3_alg».proof.Proof.NonNeg
import proofs.«401654_j5420248727899_3_alg».proof.Proof.KernelLogits
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing of the kernel was rewritten when it was read over the extended reals. -/
theorem preserves : Cert.preserves_Kernel_KernelIdeal := trivial

/-- From arguments that agree, with no id negative, both programs end with the logits of the arguments in their result. -/
theorem algebraic : Cert.algebraic_KernelIdeal_ReferenceIdeal := by
  intro m ρ m' ρ' hpre hagree
  refine ⟨fun c => Cert.BagOfWords.logits (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.LogitValue.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v24_eq]
  exact Cert.ReferenceIdeal.RefValue.ref_eq_logits _ _ _
    (Cert.Pre_finite_inputs.Decode.ids_nonneg_of_pre _ _ _ (hpre c))

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
